-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x2 : Shape := ⟨2, ![1024, 2]⟩
abbrev S32x2x2048x1024 : Shape := ⟨4, ![32, 2, 2048, 1024]⟩
abbrev S32x1024x2048 : Shape := ⟨3, ![32, 1024, 2048]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S32x2x2048x1024 : S_.BroadcastsInDim S32x2x2048x1024 (![] : Fin 0 → Fin S32x2x2048x1024.rank)
  reducesTo_S32x2x2048x1024_S_d0_1_2_3 : S32x2x2048x1024.ReducesTo [0, 1, 2, 3] S_
  bcast_S_S32x1024x2048 : S_.BroadcastsInDim S32x1024x2048 (![] : Fin 0 → Fin S32x1024x2048.rank)
  reducesTo_S32x1024x2048_S_d0_1_2 : S32x1024x2048.ReducesTo [0, 1, 2] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_arg1 : IVec S1024x2 32) (main_v13 : IVec S_ 1) (main_v15 : IVec S1024x2 1) (main_c_5 : IVec S_ 1) : IVec S_ 1 :=
  let main_v16 : IVec S_ 1 := (fun x v => Host.reduce IntOp.andi x v reducesTo_S1024x2_S_d0_1 h_S_) main_v15 main_c_5
  let main_v17 : IVec S_ 1 := andi main_v13 main_v16
  let main_c_6 : IVec S_ 32 := constantI S_ 32 32#32
  let main_v18 : IVec S1024x2 32 := broadcastInDim S1024x2 ![] bcast_S_S1024x2 main_c_6
  let main_v19 : IVec S1024x2 1 := cmpi .slt main_arg1 main_v18
  let main_c_7 : IVec S_ 1 := constantI S_ 1 1#1
  let main_v20 : IVec S_ 1 := (fun x v => Host.reduce IntOp.andi x v reducesTo_S1024x2_S_d0_1 h_S_) main_v19 main_c_7
  let main_v21 : IVec S_ 1 := andi main_v17 main_v20
  main_v21

def fn {F : FTy → Type} [FloatOps F] (main_arg0 : FVec F S1024x1024 .f32) (main_arg1 : IVec S1024x2 32) (main_arg2 : FVec F S32x2x2048x1024 .f32) (main_arg3 : FVec F S32x1024x2048 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S32x2x2048x1024 .f32 := Host.absf main_arg2
  let main_cst_0 : FVec F S_ .f32 := constant S_ .f32 0x7F800000#32
  let main_v5 : FVec F S32x2x2048x1024 .f32 := broadcastInDim S32x2x2048x1024 ![] bcast_S_S32x2x2048x1024 main_cst_0
  let main_v6 : IVec S32x2x2048x1024 1 := cmpf .olt main_v4 main_v5
  let main_c_1 : IVec S_ 1 := constantI S_ 1 1#1
  let main_v7 : IVec S_ 1 := (fun x v => Host.reduce IntOp.andi x v reducesTo_S32x2x2048x1024_S_d0_1_2_3 h_S_) main_v6 main_c_1
  let main_v8 : IVec S_ 1 := andi main_v3 main_v7
  let main_v9 : FVec F S32x1024x2048 .f32 := Host.absf main_arg3
  let main_cst_2 : FVec F S_ .f32 := constant S_ .f32 0x7F800000#32
  let main_v10 : FVec F S32x1024x2048 .f32 := broadcastInDim S32x1024x2048 ![] bcast_S_S32x1024x2048 main_cst_2
  let main_v11 : IVec S32x1024x2048 1 := cmpf .olt main_v9 main_v10
  let main_c_3 : IVec S_ 1 := constantI S_ 1 1#1
  let main_v12 : IVec S_ 1 := (fun x v => Host.reduce IntOp.andi x v reducesTo_S32x1024x2048_S_d0_1_2 h_S_) main_v11 main_c_3
  let main_v13 : IVec S_ 1 := andi main_v8 main_v12
  let main_c_4 : IVec S_ 32 := constantI S_ 32 0#32
  let main_v14 : IVec S1024x2 32 := broadcastInDim S1024x2 ![] bcast_S_S1024x2 main_c_4
  let main_v15 : IVec S1024x2 1 := cmpi .sge main_arg1 main_v14
  let main_c_5 : IVec S_ 1 := constantI S_ 1 1#1
  fn_part1 (F := F) main_arg1 main_v13 main_v15 main_c_5
-- ==== Kernel.lean ====
abbrev S1024x1024 : Shape := ⟨2, ![1024, 1024]⟩
abbrev S1024x2 : Shape := ⟨2, ![1024, 2]⟩
abbrev S32x2x2048x1024 : Shape := ⟨4, ![32, 2, 2048, 1024]⟩
abbrev S32x1024x2048 : Shape := ⟨3, ![32, 1024, 2048]⟩
abbrev S1024x2048 : Shape := ⟨2, ![1024, 2048]⟩
abbrev S512x1024 : Shape := ⟨2, ![512, 1024]⟩
abbrev S1x2x2048x1024 : Shape := ⟨4, ![1, 2, 2048, 1024]⟩
abbrev S1x1024x2048 : Shape := ⟨3, ![1, 1024, 2048]⟩
abbrev S512x2 : Shape := ⟨2, ![512, 2]⟩
abbrev S512x2048 : Shape := ⟨2, ![512, 2048]⟩
abbrev S1x1x2048x1024 : Shape := ⟨4, ![1, 1, 2048, 1024]⟩
abbrev S2048x1024 : Shape := ⟨2, ![2048, 1024]⟩
abbrev S512x1 : Shape := ⟨2, ![512, 1]⟩
abbrev S1024x2x1024 : Shape := ⟨3, ![1024, 2, 1024]⟩

abbrev nBuf : Space → Nat
  | .hbm => 9
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024x2, .i32⟩
  | .hbm, ⟨2, _⟩ => ⟨S32x2x2048x1024, .f32⟩
  | .hbm, ⟨3, _⟩ => ⟨S32x1024x2048, .f32⟩
  | .hbm, ⟨4, _⟩ => ⟨S1024x1024, .bf16⟩
  | .hbm, ⟨5, _⟩ => ⟨S32x2x2048x1024, .bf16⟩
  | .hbm, ⟨6, _⟩ => ⟨S32x1024x2048, .bf16⟩
  | .hbm, ⟨7, _⟩ => ⟨S1024x2048, .f32⟩
  | .hbm, ⟨8, _⟩ => ⟨S1024x2x1024, .f32⟩
  | .local _ .vmem, ⟨0, _⟩ => ⟨S512x1024, .bf16⟩
  | .local _ .vmem, ⟨1, _⟩ => ⟨S512x1024, .bf16⟩
  | .local _ .vmem, ⟨2, _⟩ => ⟨S1x2x2048x1024, .bf16⟩
  | .local _ .vmem, ⟨3, _⟩ => ⟨S1x2x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2, .i32⟩
  | .local _ .vmem, ⟨7, _⟩ => ⟨S512x2, .i32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x2x2048x1024_S1x1x2048x1024_0_0_0_0 : ∀ a, (![0, 0, 0, 0] : Fin 4 → Nat) a + S1x1x2048x1024.size a ≤ S1x2x2048x1024.size a
  h_S1x1x2048x1024 : 0 < S1x1x2048x1024.numel
  shapeCasts_S1x1x2048x1024_S2048x1024 : S1x1x2048x1024.ShapeCasts S2048x1024
  inb_S1x2x2048x1024_S1x1x2048x1024_0_1_0_0 : ∀ a, (![0, 1, 0, 0] : Fin 4 → Nat) a + S1x1x2048x1024.size a ≤ S1x2x2048x1024.size a
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S512x2_S512x2_0_0 : ∀ a, (![0, 0] : Fin 2 → Nat) a + S512x2.size a ≤ S512x2.size a
  h_S512x2 : 0 < S512x2.numel
  natLt_1_32 : 1 < 32
  slices_S512x2_o0_0_S512x1 : S512x2.Slices ![0, 0] S512x1
  broadcasts_S512x1_S512x1024 : S512x1.Broadcasts S512x1024
  slices_S512x2_o0_1_S512x1 : S512x2.Slices ![0, 1] S512x1
  concatenates_S512x1024_S512x1024_S512x2048_d1 : Shape.Concatenates [S512x1024, S512x1024] S512x2048 1
  shapeCasts_S1024x2048_S1024x2x1024 : S1024x2048.ShapeCasts S1024x2x1024
  dot_S512x1024_S2048x1024_S512x2048_1_1_0_0_n_n_wf : DotDims.WF S512x1024 S2048x1024 S512x2048 [1] [1] [0] [0] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .bf16 = 32 ∨ (Rect.block (s := S1024x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x2048x1024.size a ≤ S32x2x2048x1024.size a
  hwx0_1 : ∀ i : grid0.Coords, EltTy.bits .bf16 = 32 ∨ (Rect.block (s := S32x2x2048x1024) S1x2x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S32x1024x2048.size a
  hwx0_2 : ∀ i : grid0.Coords, EltTy.bits .bf16 = 32 ∨ (Rect.block (s := S32x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S1024x2.size a
  hwx0_3 : ∀ i : grid0.Coords, EltTy.bits .i32 = 32 ∨ (Rect.block (s := S1024x2) S512x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S1024x2048.size a
  hwx0_4 : ∀ i : grid0.Coords, EltTy.bits .f32 = 32 ∨ (Rect.block (s := S1024x2048) S512x2048.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024x2 : Shape := ⟨2, ![1024, 2]⟩
abbrev S32x2x2048x1024 : Shape := ⟨4, ![32, 2, 2048, 1024]⟩
abbrev S32x1024x2048 : Shape := ⟨3, ![32, 1024, 2048]⟩
abbrev S1024x32x2x2048 : Shape := ⟨4, ![1024, 32, 2, 2048]⟩
abbrev S1024x2x1x1 : Shape := ⟨4, ![1024, 2, 1, 1]⟩
abbrev S_ : Shape := ⟨0, ![]⟩
abbrev S1024x2x1 : Shape := ⟨3, ![1024, 2, 1]⟩
abbrev S1 : Shape := ⟨1, ![1]⟩
abbrev S1x1x1 : Shape := ⟨3, ![1, 1, 1]⟩
abbrev S1024x2x2x2048 : Shape := ⟨4, ![1024, 2, 2, 2048]⟩
abbrev S1024x2x1x2048 : Shape := ⟨4, ![1024, 2, 1, 2048]⟩
abbrev S1024x2x2048 : Shape := ⟨3, ![1024, 2, 2048]⟩
abbrev S1024x2x32x1024 : Shape := ⟨4, ![1024, 2, 32, 1024]⟩
abbrev S1x1x1x1 : Shape := ⟨4, ![1, 1, 1, 1]⟩
abbrev S1024x2x1x1024 : Shape := ⟨4, ![1024, 2, 1, 1024]⟩
abbrev S1024x2x1024 : Shape := ⟨3, ![1024, 2, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x2, .i32⟩
  | .hbm, ⟨2, _⟩ => ⟨S32x2x2048x1024, .f32⟩
  | .hbm, ⟨3, _⟩ => ⟨S32x1024x2048, .f32⟩
  | .hbm, ⟨4, _⟩ => ⟨S1024x32x2x2048, .f32⟩
  | .hbm, ⟨5, _⟩ => ⟨S1024x2x1x1, .i32⟩
  | .hbm, ⟨6, _⟩ => ⟨S_, .i32⟩
  | .hbm, ⟨7, _⟩ => ⟨S1024x2x1x1, .i32⟩
  | .hbm, ⟨8, _⟩ => ⟨S1024x2x1x1, .i1⟩
  | .hbm, ⟨9, _⟩ => ⟨S_, .i32⟩
  | .hbm, ⟨10, _⟩ => ⟨S1024x2x1x1, .i32⟩
  | .hbm, ⟨11, _⟩ => ⟨S1024x2x1x1, .i32⟩
  | .hbm, ⟨12, _⟩ => ⟨S1024x2x1x1, .i32⟩
  | .hbm, ⟨13, _⟩ => ⟨S1024x2x1, .i32⟩
  | .hbm, ⟨14, _⟩ => ⟨S1, .i32⟩
  | .hbm, ⟨15, _⟩ => ⟨S_, .i32⟩
  | .hbm, ⟨16, _⟩ => ⟨S1024x2x1, .i32⟩
  | .hbm, ⟨17, _⟩ => ⟨S1024x2x1, .i1⟩
  | .hbm, ⟨18, _⟩ => ⟨S1x1x1, .i32⟩
  | .hbm, ⟨19, _⟩ => ⟨S1024x2x1, .i32⟩
  | .hbm, ⟨20, _⟩ => ⟨S1024x2x1, .i1⟩
  | .hbm, ⟨21, _⟩ => ⟨S1024x2x1, .i1⟩
  | .hbm, ⟨22, _⟩ => ⟨S_, .i1⟩
  | .hbm, ⟨23, _⟩ => ⟨S1024x2, .i1⟩
  | .hbm, ⟨24, _⟩ => ⟨S1024x2x2x2048, .f32⟩
  | .hbm, ⟨25, _⟩ => ⟨S1024x2x2x2048, .i1⟩
  | .hbm, ⟨26, _⟩ => ⟨S_, .f32⟩
  | .hbm, ⟨27, _⟩ => ⟨S1024x2x2x2048, .f32⟩
  | .hbm, ⟨28, _⟩ => ⟨S1024x2x2x2048, .f32⟩
  | .hbm, ⟨29, _⟩ => ⟨S1024x2x1x2048, .f32⟩
  | .hbm, ⟨30, _⟩ => ⟨S1024x2x2048, .f32⟩
  | .hbm, ⟨31, _⟩ => ⟨S1024x2x2048, .f32⟩
  | .hbm, ⟨32, _⟩ => ⟨S1024x2x2048, .f32⟩
  | .hbm, ⟨33, _⟩ => ⟨S_, .f32⟩
  | .hbm, ⟨34, _⟩ => ⟨S1024x2x2048, .f32⟩
  | .hbm, ⟨35, _⟩ => ⟨S1024x2x2048, .f32⟩
  | .hbm, ⟨36, _⟩ => ⟨S_, .f32⟩
  | .hbm, ⟨37, _⟩ => ⟨S1024x2x2048, .f32⟩
  | .hbm, ⟨38, _⟩ => ⟨S1024x2x2048, .f32⟩
  | .hbm, ⟨39, _⟩ => ⟨S1024x2x2048, .f32⟩
  | .hbm, ⟨40, _⟩ => ⟨S1024x2x1x2048, .f32⟩
  | .hbm, ⟨41, _⟩ => ⟨S1024x2x2048, .f32⟩
  | .hbm, ⟨42, _⟩ => ⟨S1024x2x2048, .f32⟩
  | .hbm, ⟨43, _⟩ => ⟨S1024x2x32x1024, .f32⟩
  | .hbm, ⟨44, _⟩ => ⟨S1024x2x1x1, .i32⟩
  | .hbm, ⟨45, _⟩ => ⟨S_, .i32⟩
  | .hbm, ⟨46, _⟩ => ⟨S1024x2x1x1, .i32⟩
  | .hbm, ⟨47, _⟩ => ⟨S1024x2x1x1, .i1⟩
  | .hbm, ⟨48, _⟩ => ⟨S_, .i32⟩
  | .hbm, ⟨49, _⟩ => ⟨S1024x2x1x1, .i32⟩
  | .hbm, ⟨50, _⟩ => ⟨S1024x2x1x1, .i32⟩
  | .hbm, ⟨51, _⟩ => ⟨S1024x2x1x1, .i32⟩
  | .hbm, ⟨52, _⟩ => ⟨S1, .i32⟩
  | .hbm, ⟨53, _⟩ => ⟨S_, .i32⟩
  | .hbm, ⟨54, _⟩ => ⟨S1024x2x1x1, .i32⟩
  | .hbm, ⟨55, _⟩ => ⟨S1024x2x1x1, .i1⟩
  | .hbm, ⟨56, _⟩ => ⟨S1x1x1x1, .i32⟩
  | .hbm, ⟨57, _⟩ => ⟨S1024x2x1x1, .i32⟩
  | .hbm, ⟨58, _⟩ => ⟨S1024x2x1x1, .i1⟩
  | .hbm, ⟨59, _⟩ => ⟨S1024x2x1x1, .i1⟩
  | .hbm, ⟨60, _⟩ => ⟨S_, .i1⟩
  | .hbm, ⟨61, _⟩ => ⟨S1024x2x1, .i1⟩
  | .hbm, ⟨62, _⟩ => ⟨S1024x2x1x1024, .f32⟩
  | .hbm, ⟨63, _⟩ => ⟨S1024x2x1x1024, .i1⟩
  | .hbm, ⟨64, _⟩ => ⟨S_, .f32⟩
  | .hbm, ⟨65, _⟩ => ⟨S1024x2x1x1024, .f32⟩
  | .hbm, ⟨66, _⟩ => ⟨S1024x2x1x1024, .f32⟩
  | .hbm, ⟨67, _⟩ => ⟨S1024x2x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_c_2 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_c_3 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v11 : Ref sig .tc := ⟨.hbm, 66, rfl⟩
abbrev main_v12 : Ref sig .tc := ⟨.hbm, 67, rfl⟩

abbrev nD : Nat := 1
abbrev τ : Topo := Topo.v7x

variable {F : FTy → Type} [FloatOps F]

class Facts₀ : Prop where
  bcast_S1024x2_S1024x2x1x1_0_1 : S1024x2.BroadcastsInDim S1024x2x1x1 (![0, 1] : Fin 2 → Fin S1024x2x1x1.rank)
  bcast_S_S1024x2x1x1 : S_.BroadcastsInDim S1024x2x1x1 (![] : Fin 0 → Fin S1024x2x1x1.rank)
  shapeCasts_S1024x2x1x1_S1024x2x1 : S1024x2x1x1.ShapeCasts S1024x2x1
  bcast_S_S1024x2x1 : S_.BroadcastsInDim S1024x2x1 (![] : Fin 0 → Fin S1024x2x1.rank)
  bcast_S1_S1x1x1_2 : S1.BroadcastsInDim S1x1x1 (![2] : Fin 1 → Fin S1x1x1.rank)
  bcast_S1x1x1_S1024x2x1_0_1_2 : S1x1x1.BroadcastsInDim S1024x2x1 (![0, 1, 2] : Fin 3 → Fin S1024x2x1.rank)
  reducesTo_S1024x2x1_S1024x2_d2 : S1024x2x1.ReducesTo [2] S1024x2
  h_S_ : 0 < S_.numel
  bcast_S1024x2_S1024x2x2x2048_0_1 : S1024x2.BroadcastsInDim S1024x2x2x2048 (![0, 1] : Fin 2 → Fin S1024x2x2x2048.rank)
  bcast_S_S1024x2x2x2048 : S_.BroadcastsInDim S1024x2x2x2048 (![] : Fin 0 → Fin S1024x2x2x2048.rank)
  slices_S1024x2x2x2048_S1024x2x1x2048_0_0_0_0 : S1024x2x2x2048.Slices ![0, 0, 0, 0] S1024x2x1x2048
  shapeCasts_S1024x2x1x2048_S1024x2x2048 : S1024x2x1x2048.ShapeCasts S1024x2x2048
  bcast_S_S1024x2x2048 : S_.BroadcastsInDim S1024x2x2048 (![] : Fin 0 → Fin S1024x2x2048.rank)
  slices_S1024x2x2x2048_S1024x2x1x2048_0_0_1_0 : S1024x2x2x2048.Slices ![0, 0, 1, 0] S1024x2x1x2048
  bcast_S1_S1x1x1x1_3 : S1.BroadcastsInDim S1x1x1x1 (![3] : Fin 1 → Fin S1x1x1x1.rank)
  bcast_S1x1x1x1_S1024x2x1x1_0_1_2_3 : S1x1x1x1.BroadcastsInDim S1024x2x1x1 (![0, 1, 2, 3] : Fin 4 → Fin S1024x2x1x1.rank)
  reducesTo_S1024x2x1x1_S1024x2x1_d3 : S1024x2x1x1.ReducesTo [3] S1024x2x1
  bcast_S1024x2x1_S1024x2x1x1024_0_1_2 : S1024x2x1.BroadcastsInDim S1024x2x1x1024 (![0, 1, 2] : Fin 3 → Fin S1024x2x1x1024.rank)
  bcast_S_S1024x2x1x1024 : S_.BroadcastsInDim S1024x2x1x1024 (![] : Fin 0 → Fin S1024x2x1x1024.rank)
  shapeCasts_S1024x2x1x1024_S1024x2x1024 : S1024x2x1x1024.ShapeCasts S1024x2x1024
  dot_S1024x1024_S32x2x2048x1024_S1024x32x2x2048_1_3_0_012_n_n_wf : DotDims.WF S1024x1024 S32x2x2048x1024 S1024x32x2x2048 [1] [3] [0] [0, 1, 2] [] []
  gather_S1024x32x2x2048_S1024x2x1_S1024x2x2x2048_23_1_0_0_1_2_1122048_wf : GatherDims.WF S1024x32x2x2048 S1024x2x1 S1024x2x2x2048 [2, 3] [1] [0] [1] [0] 2 ![1, 1, 2, 2048]
  dot_S1024x2x2048_S32x1024x2048_S1024x2x32x1024_2_2_01_01_n_n_wf : DotDims.WF S1024x2x2048 S32x1024x2048 S1024x2x32x1024 [2] [2] [0, 1] [0, 1] [] []
  gather_S1024x2x32x1024_S1024x2x1x1_S1024x2x1x1024_3_2_01_01_2_3_1111024_wf : GatherDims.WF S1024x2x32x1024 S1024x2x1x1 S1024x2x1x1024 [3] [2] [0, 1] [2] [0, 1] 3 ![1, 1, 1, 1024]

variable [Facts₀]

def dot_S1024x1024_S32x2x2048x1024_S1024x32x2x2048_1_3_0_012_n_n : DotDims S1024x1024 S32x2x2048x1024 S1024x32x2x2048 where
  lhsContracting := [1]
  rhsContracting := [3]
  lhsNonContracting := [0]
  rhsNonContracting := [0, 1, 2]
  lhsBatch := []
  rhsBatch := []
  wf := dot_S1024x1024_S32x2x2048x1024_S1024x32x2x2048_1_3_0_012_n_n_wf
def gather_S1024x32x2x2048_S1024x2x1_S1024x2x2x2048_23_1_0_0_1_2_1122048 : GatherDims S1024x32x2x2048 S1024x2x1 S1024x2x2x2048 where
  offsetDims := [2, 3]
  collapsedSliceDims := [1]
  operandBatchingDims := [0]
  startIndicesBatchingDims := [0]
  startIndexMap := [1]
  indexVectorDim := 2
  sliceSizes := ![1, 1, 2, 2048]
  wf := gather_S1024x32x2x2048_S1024x2x1_S1024x2x2x2048_23_1_0_0_1_2_1122048_wf
def dot_S1024x2x2048_S32x1024x2048_S1024x2x32x1024_2_2_01_01_n_n : DotDims S1024x2x2048 S32x1024x2048 S1024x2x32x1024 where
  lhsContracting := [2]
  rhsContracting := [2]
  lhsNonContracting := [0, 1]
  rhsNonContracting := [0, 1]
  lhsBatch := []
  rhsBatch := []
  wf := dot_S1024x2x2048_S32x1024x2048_S1024x2x32x1024_2_2_01_01_n_n_wf
def gather_S1024x2x32x1024_S1024x2x1x1_S1024x2x1x1024_3_2_01_01_2_3_1111024 : GatherDims S1024x2x32x1024 S1024x2x1x1 S1024x2x1x1024 where
  offsetDims := [3]
  collapsedSliceDims := [2]
  operandBatchingDims := [0, 1]
  startIndicesBatchingDims := [0, 1]
  startIndexMap := [2]
  indexVectorDim := 3
  sliceSizes := ![1, 1, 1, 1024]
  wf := gather_S1024x2x32x1024_S1024x2x1x1_S1024x2x1x1024_3_2_01_01_2_3_1111024_wf

class Facts : Prop extends Facts₀ where

variable [Facts]
-- ==== Proof.Spec.lean ====
/-
  The mathematics of the routed feed-forward layer, over whole arrays of extended reals and independent of either program.

  For a token t and an expert e, `proj` is the gate (s = 0) or up (s = 1) pre-activation of hidden unit h,
  `hidden` is silu(gate) · up with silu(g) = g · 1/(1 + e^{-g}), and `down` is the down projection of that hidden row by
  expert e's matrix. The layer's result at (t, k, d) is `down` of token t by the expert that slot k of token t names.

  One way to compute it visits the experts e = 0, 1, …, 31 in turn and adds, into an accumulator that starts at 0, the
  expert's down projection times the indicator "slot k of token t names e". `partialOut` is that accumulator after
  experts 0..e. The three laws at the end say it starts right, steps right, and ends at the layer's result when the
  slot's index is below 32. They use only 0 · y = 0, 1 · y = y, 0 + y = y and y + 0 = y, which hold for every
  extended real y, so nothing here needs the inputs to be finite.
-/
import Idealize.ShloMosaic.PureOps.Ideal
import Idealize.ShloMosaic.Lib.ValueIdx

noncomputable section

open scoped BigOperators

namespace Cert.MoeSpec

open Idealize.ShloMosaic Idealize.ShloMosaic.ValueIdx

/-- Tokens × model width. -/
abbrev SX : Shape := ⟨2, ![1024, 1024]⟩
/-- Tokens × slots: the expert each slot names. -/
abbrev SI : Shape := ⟨2, ![1024, 2]⟩
/-- Experts × (gate, up) × hidden × model width. -/
abbrev SGU : Shape := ⟨4, ![32, 2, 2048, 1024]⟩
/-- Experts × model width × hidden. -/
abbrev SD : Shape := ⟨3, ![32, 1024, 2048]⟩
/-- Tokens × slots × model width: the result. -/
abbrev SO : Shape := ⟨3, ![1024, 2, 1024]⟩

/-- Column k · 1024 + d of a row of 2048: slot k's part of a token's row, laid side by side. -/
abbrev col (k : Fin 2) (d : Fin 1024) : Fin 2048 :=
  ⟨k.val * 1024 + d.val, by have := k.isLt; have := d.isLt; omega⟩

/-- Row r of token tile `tile`: token 512 · tile + r. -/
abbrev tokRow (tile : Fin 2) (r : Fin 512) : Fin 1024 :=
  ⟨512 * tile.val + r.val, by have := tile.isLt; have := r.isLt; omega⟩

/-- Every column of 2048 is `col` of its slot and its position inside the slot. -/
theorem eq_col (j : Fin 2048) : j = col ⟨j.val / 1024, by have := j.isLt; omega⟩ ⟨j.val % 1024, Nat.mod_lt _ (by decide)⟩ := by
  apply Fin.ext
  show j.val = j.val / 1024 * 1024 + j.val % 1024
  omega

/-- The gate (s = 0) or up (s = 1) pre-activation of hidden unit h, for token t and expert e. -/
def proj (x : SX.Idx → EReal) (wgu : SGU.Idx → EReal) (t : Fin 1024) (e : Fin 32) (s : Fin 2) (h : Fin 2048) : EReal :=
  ∑ j : Fin 1024, x (ix2 t j) * wgu (ix4 e s h j)

/-- silu(gate) · up. -/
def hidden (x : SX.Idx → EReal) (wgu : SGU.Idx → EReal) (t : Fin 1024) (e : Fin 32) (h : Fin 2048) : EReal :=
  (proj x wgu t e 0 h * Ideal.logistic (proj x wgu t e 0 h)) * proj x wgu t e 1 h

/-- Expert e's down projection of token t's hidden row, at model coordinate d. -/
def down (x : SX.Idx → EReal) (wgu : SGU.Idx → EReal) (wd : SD.Idx → EReal) (t : Fin 1024) (e : Fin 32) (d : Fin 1024) : EReal :=
  ∑ h : Fin 2048, hidden x wgu t e h * wd (ix3 e d h)

/-- The expert a 32-bit index word names (the word's value, which the laws below use only when it is below 32). -/
def expert (b : BitVec 32) : Fin 32 := ⟨b.toNat % 32, Nat.mod_lt _ (by decide)⟩

/-- The layer: at (t, k, d) the down projection of token t by the expert slot k names. -/
def moe (x : SX.Idx → EReal) (idx : SI.Idx → BitVec 32) (wgu : SGU.Idx → EReal) (wd : SD.Idx → EReal) : SO.Idx → EReal :=
  fun i => down x wgu wd (i 0) (expert (idx (ix2 (i 0) (i 1)))) (i 2)

/-- The indicator "the index word b names expert e", as an extended real. -/
def maskOf (b : BitVec 32) (e : Nat) : EReal := if b = BitVec.ofNat 32 e then 1 else 0

/-- One expert's masked contribution to a tile of 512 tokens, from the tile's blocks: `xb` the tokens' rows, `wb` the
    expert's gate and up matrices, `db` its down matrix, `ib` the tokens' slots. At row r, slot k and model
    coordinate d it is the indicator "slot k of row r names e" times the expert's down projection of row r. -/
def contribBlk (xb : (⟨2, ![512, 1024]⟩ : Shape).Idx → EReal) (wb : (⟨4, ![1, 2, 2048, 1024]⟩ : Shape).Idx → EReal)
    (db : (⟨3, ![1, 1024, 2048]⟩ : Shape).Idx → EReal) (ib : (⟨2, ![512, 2]⟩ : Shape).Idx → BitVec 32) (e : Nat)
    (r : Fin 512) (k : Fin 2) (d : Fin 1024) : EReal :=
  maskOf (ib (ix2 r k)) e *
    ∑ h : Fin 2048,
      (((∑ j : Fin 1024, xb (ix2 r j) * wb (ix4 0 0 h j)) * Ideal.logistic (∑ j : Fin 1024, xb (ix2 r j) * wb (ix4 0 0 h j)))
        * (∑ j : Fin 1024, xb (ix2 r j) * wb (ix4 0 1 h j))) * db (ix3 0 d h)

/-- The accumulator after experts 0..e: the layer's value where the slot's expert has been visited, 0 elsewhere. -/
def partialOut (x : SX.Idx → EReal) (idx : SI.Idx → BitVec 32) (wgu : SGU.Idx → EReal) (wd : SD.Idx → EReal) (e : Nat)
    (t : Fin 1024) (k : Fin 2) (d : Fin 1024) : EReal :=
  if (idx (ix2 t k)).toNat ≤ e then down x wgu wd t (expert (idx (ix2 t k))) d else 0

variable (x : SX.Idx → EReal) (idx : SI.Idx → BitVec 32) (wgu : SGU.Idx → EReal) (wd : SD.Idx → EReal)

/-- A word is `BitVec.ofNat 32 e` for e < 32 exactly when its value is e. -/
theorem eq_ofNat_iff (b : BitVec 32) (e : Nat) (he : e < 32) : b = BitVec.ofNat 32 e ↔ b.toNat = e := by
  constructor
  · intro h; rw [h, BitVec.toNat_ofNat]; omega
  · intro h; apply BitVec.eq_of_toNat_eq; rw [BitVec.toNat_ofNat, h]; omega

/-- When the word names e, `expert` of it is e. -/
theorem expert_of_toNat (b : BitVec 32) (e : Nat) (he : e < 32) (h : b.toNat = e) : expert b = ⟨e, he⟩ := by
  apply Fin.ext; show b.toNat % 32 = e; omega

/-- The accumulator, started at 0, after expert 0. -/
theorem partialOut_zero (t : Fin 1024) (k : Fin 2) (d : Fin 1024) :
    0 + maskOf (idx (ix2 t k)) 0 * down x wgu wd t ⟨0, by decide⟩ d = partialOut x idx wgu wd 0 t k d := by
  unfold partialOut maskOf
  by_cases h : (idx (ix2 t k)).toNat = 0
  · rw [if_pos ((eq_ofNat_iff _ 0 (by decide)).mpr h), if_pos (by omega), one_mul, zero_add,
      expert_of_toNat _ 0 (by decide) h]
  · rw [if_neg (fun h' => h ((eq_ofNat_iff _ 0 (by decide)).mp h')), if_neg (by omega), zero_mul, zero_add]

/-- One more expert: adding expert e + 1's masked down projection to the accumulator after experts 0..e. -/
theorem partialOut_succ (e : Nat) (he : e + 1 < 32) (t : Fin 1024) (k : Fin 2) (d : Fin 1024) :
    partialOut x idx wgu wd e t k d + maskOf (idx (ix2 t k)) (e + 1) * down x wgu wd t ⟨e + 1, he⟩ d
      = partialOut x idx wgu wd (e + 1) t k d := by
  unfold partialOut maskOf
  by_cases h : (idx (ix2 t k)).toNat = e + 1
  · rw [if_pos ((eq_ofNat_iff _ (e + 1) he).mpr h), if_neg (by omega), if_pos (by omega), one_mul, zero_add,
      expert_of_toNat _ (e + 1) he h]
  · rw [if_neg (fun h' => h ((eq_ofNat_iff _ (e + 1) he).mp h')), zero_mul, add_zero]
    by_cases h2 : (idx (ix2 t k)).toNat ≤ e
    · rw [if_pos h2, if_pos (by omega)]
    · rw [if_neg h2, if_neg (by omega)]

/-- After all 32 experts the accumulator is the layer's result, where the slot's index is below 32. -/
theorem partialOut_last (t : Fin 1024) (k : Fin 2) (d : Fin 1024) (h : (idx (ix2 t k)).toNat < 32) :
    partialOut x idx wgu wd 31 t k d = moe x idx wgu wd (ix3 t k d) := by
  unfold partialOut moe
  rw [if_pos (by omega)]

end Cert.MoeSpec

end
-- ==== Proof.PreIdx.lean ====
/-
  Reading the precondition: when it holds of the four argument arrays, every slot's expert index, read as an unsigned
  word, is below 32. (The precondition asks 0 ≤ index, signed, and index < 32, signed; a 32-bit word that is
  non-negative as a signed number has the same value unsigned, so both together say the unsigned value is below 32.)
-/
import proofs.«411968_j2018634629557_2_alg».proof.Pre_finite_inputs
import proofs.«411968_j2018634629557_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

variable {F : FTy → Type} [FloatOps F]

/-- The result shape of a reduction over every axis has exactly one index. -/
private instance : Subsingleton S_.Idx := ⟨fun a b => funext fun d => d.elim0⟩

/-- A 32-bit word that is non-negative and below 32 as a signed number is below 32 as an unsigned one. -/
private theorem toNat_lt_of_signed (a : BitVec 32) (h0 : IntOp.cmpi .sge a 0#32 = 1#1)
    (h1 : IntOp.cmpi .slt a 32#32 = 1#1) : a.toNat < 32 := by
  simp only [IntOp.cmpi, StableHlo.Predicate.ofBool_eq_one_iff, BitVec.sle, BitVec.slt, decide_eq_true_eq] at h0 h1
  have e0 : (0#32 : BitVec 32).toInt = 0 := by decide
  have e32 : (32#32 : BitVec 32).toInt = 32 := by decide
  rw [e0] at h0
  rw [e32] at h1
  rw [BitVec.toInt_eq_toNat_cond] at h0 h1
  have := a.isLt
  split at h0 <;> omega

/-- Under the precondition every expert index is below 32 as an unsigned word. -/
theorem idx_lt_of_pre (x0 : FVec F S1024x1024 .f32) (x1 : IVec S1024x2 32) (x2 : FVec F S32x2x2048x1024 .f32)
    (x3 : FVec F S32x1024x2048 .f32) (h : fn (F := F) x0 x1 x2 x3 = fun _ => 1#1) :
    ∀ i : S1024x2.Idx, (x1 i).toNat < 32 := by
  intro i
  have h0 := congrFun h ValueIdx.ix0
  dsimp only [fn, fn_part1] at h0
  -- the last conjunct is "every index is below 32, signed"; the one before it "every index is at least 0, signed"
  change IntOp.andi _ _ = 1#1 at h0
  obtain ⟨h1, hlt⟩ := IntOp.andi_eq_one.1 h0
  change IntOp.andi _ _ = 1#1 at h1
  obtain ⟨_, hge⟩ := IntOp.andi_eq_one.1 h1
  -- a conjunction over all slots that holds, holds at slot i
  have ege := Host.reduce_andi_all _ _ _ _ _ hge i
  have elt := Host.reduce_andi_all _ _ _ _ _ hlt i
  -- the compared array is the constant broadcast to every slot
  change IntOp.cmpi .sge (x1 i) 0#32 = 1#1 at ege
  change IntOp.cmpi .slt (x1 i) 32#32 = 1#1 at elt
  exact toNat_lt_of_signed _ ege elt

end Cert.Pre_finite_inputs.Decode

end
-- ==== Proof.RefValue.lean ====
/-
  The reference at the ideal instance, read index by index: its result at (t, k, d) is the down projection of token t by
  the expert that slot k names, when every expert index lies in 0..31.

  The reference computes the gate and up pre-activations of every token by every expert, selects along the expert axis
  at the slot's index, forms silu(gate) · up, projects the hidden row down by every expert, and selects along the expert
  axis again. Each selection wraps a negative index by 32, tests 0 ≤ index ≤ 31, gathers at the index clamped into
  0..31 and fills with a not-a-number where the test fails. For an index word below 32 the wrap does nothing, the test
  holds, and the clamp is the identity, so each selection reads the operand at the expert the word names.
-/
import proofs.«411968_j2018634629557_2_alg».proof.Defs
import proofs.«411968_j2018634629557_2_alg».proof.Proof.Gen.ReferenceIdeal.Run
import proofs.«411968_j2018634629557_2_alg».proof.Proof.Gen.ReferenceIdeal.Read
import proofs.«411968_j2018634629557_2_alg».proof.Proof.Spec
import Idealize.ShloMosaic.Lib.StableHlo.Predicate
import Idealize.ShloMosaic.PureOps.Reduce
import Idealize.ShloMosaic.PureOps.IdealRules

noncomputable section

namespace Cert.ReferenceIdeal.RefValue

open Cert.ReferenceIdeal Cert.ReferenceIdeal.Gen Cert.MoeSpec Idealize.ShloMosaic Idealize.ShloMosaic.ValueIdx

/-! ## A reduction by and of an array of ones -/

/-- A left fold by and over one-bit words that are all 1, started at 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduction by and of an array of ones, from one, is one at every result index. -/
theorem reduce_andi_of_all {s t u : Shape} {axes : List (Fin s.rank)} (x : s.Idx → BitVec 1) (init : u.Idx → BitVec 1)
    (h : s.ReducesTo axes t) (hu : 0 < u.numel) (j : t.Idx) (hinit : ∀ q, init q = 1#1) (hx : ∀ i, x i = 1#1) :
    Host.reduce IntOp.andi x init h hu j = 1#1 := by
  rw [Host.reduce_eq_foldl, hinit]
  exact foldl_andi_one x _ (fun i _ => hx i)

/-! ## The two gathers, read at an index -/

/-- The first gather read at an index: batching axis 0 keeps the token, the collapsed axis 1 is the start index read signed
    and clamped into 0..31, axes 2 and 3 are offset axes. -/
theorem gather0_apply {α : Type} (x : S1024x32x2x2048.Idx → α) (idx : IVec S1024x2x1 32) (j : S1024x2x2x2048.Idx) :
    Host.gather gather_S1024x32x2x2048_S1024x2x1_S1024x2x2x2048_23_1_0_0_1_2_1122048 x idx j
      = x (ix4 (j 0) ⟨min (idx (ix3 (j 0) (j 1) 0)).toInt.toNat 31, by omega⟩ (j 2) (j 3)) := by
  unfold Host.gather
  congr 1
  funext a
  refine Fin.ext ?_
  match a with
  | ⟨0, _⟩ =>
    show gather_S1024x32x2x2048_S1024x2x1_S1024x2x2x2048_23_1_0_0_1_2_1122048.start j idx 0
      + gather_S1024x32x2x2048_S1024x2x1_S1024x2x2x2048_23_1_0_0_1_2_1122048.batchCoord j 0
      + gather_S1024x32x2x2048_S1024x2x1_S1024x2x2x2048_23_1_0_0_1_2_1122048.offCoord j 0 = (j 0).val
    rw [GatherDims.start_batching _ _ _ _ (by decide), GatherDims.offCoord_eq_zero _ _ _ (by decide), Nat.zero_add,
      Nat.add_zero]
    unfold GatherDims.batchCoord
    rw [dif_pos (by decide)]
    rfl
  | ⟨1, _⟩ =>
    show gather_S1024x32x2x2048_S1024x2x1_S1024x2x2x2048_23_1_0_0_1_2_1122048.start j idx 1
      + gather_S1024x32x2x2048_S1024x2x1_S1024x2x2x2048_23_1_0_0_1_2_1122048.batchCoord j 1
      + gather_S1024x32x2x2048_S1024x2x1_S1024x2x2x2048_23_1_0_0_1_2_1122048.offCoord j 1
      = min (idx (ix3 (j 0) (j 1) 0)).toInt.toNat 31
    rw [GatherDims.batchCoord_eq_zero _ _ _ (by decide), GatherDims.offCoord_eq_zero _ _ _ (by decide), Nat.add_zero]
    unfold GatherDims.start
    rw [dif_pos (by decide)]
    have hsi : gather_S1024x32x2x2048_S1024x2x1_S1024x2x2x2048_23_1_0_0_1_2_1122048.siIdx j
        ⟨List.idxOf (1 : Fin 4) gather_S1024x32x2x2048_S1024x2x1_S1024x2x2x2048_23_1_0_0_1_2_1122048.startIndexMap,
          List.idxOf_lt_length_iff.2 (by decide)⟩ = ix3 (j 0) (j 1) 0 := by
      funext b; refine Fin.ext ?_
      match b with
      | ⟨0, _⟩ => rfl
      | ⟨1, _⟩ => rfl
      | ⟨2, _⟩ => rfl
    rw [hsi]
    rfl
  | ⟨2, _⟩ =>
    show gather_S1024x32x2x2048_S1024x2x1_S1024x2x2x2048_23_1_0_0_1_2_1122048.start j idx 2
      + gather_S1024x32x2x2048_S1024x2x1_S1024x2x2x2048_23_1_0_0_1_2_1122048.batchCoord j 2
      + gather_S1024x32x2x2048_S1024x2x1_S1024x2x2x2048_23_1_0_0_1_2_1122048.offCoord j 2 = (j 2).val
    rw [GatherDims.batchCoord_eq_zero _ _ _ (by decide)]
    unfold GatherDims.start GatherDims.offCoord
    rw [dif_neg (by decide), dif_pos (by decide), Nat.add_zero, Nat.zero_add]
    rfl
  | ⟨3, _⟩ =>
    show gather_S1024x32x2x2048_S1024x2x1_S1024x2x2x2048_23_1_0_0_1_2_1122048.start j idx 3
      + gather_S1024x32x2x2048_S1024x2x1_S1024x2x2x2048_23_1_0_0_1_2_1122048.batchCoord j 3
      + gather_S1024x32x2x2048_S1024x2x1_S1024x2x2x2048_23_1_0_0_1_2_1122048.offCoord j 3 = (j 3).val
    rw [GatherDims.batchCoord_eq_zero _ _ _ (by decide)]
    unfold GatherDims.start GatherDims.offCoord
    rw [dif_neg (by decide), dif_pos (by decide), Nat.add_zero, Nat.zero_add]
    rfl

/-- The second gather read at an index: batching axes 0 and 1 keep the token and the slot, the collapsed axis 2 is the
    start index read signed and clamped into 0..31, axis 3 is the offset axis. -/
theorem gather2_apply {α : Type} (x : S1024x2x32x1024.Idx → α) (idx : IVec S1024x2x1x1 32) (j : S1024x2x1x1024.Idx) :
    Host.gather gather_S1024x2x32x1024_S1024x2x1x1_S1024x2x1x1024_3_2_01_01_2_3_1111024 x idx j
      = x (ix4 (j 0) (j 1) ⟨min (idx (ix4 (j 0) (j 1) 0 0)).toInt.toNat 31, by omega⟩ (j 3)) := by
  unfold Host.gather
  congr 1
  funext a
  refine Fin.ext ?_
  match a with
  | ⟨0, _⟩ =>
    show gather_S1024x2x32x1024_S1024x2x1x1_S1024x2x1x1024_3_2_01_01_2_3_1111024.start j idx 0 + gather_S1024x2x32x1024_S1024x2x1x1_S1024x2x1x1024_3_2_01_01_2_3_1111024.batchCoord j 0 + gather_S1024x2x32x1024_S1024x2x1x1_S1024x2x1x1024_3_2_01_01_2_3_1111024.offCoord j 0 = (j 0).val
    rw [GatherDims.start_batching _ _ _ _ (by decide), GatherDims.offCoord_eq_zero _ _ _ (by decide), Nat.zero_add,
      Nat.add_zero]
    unfold GatherDims.batchCoord
    rw [dif_pos (by decide)]
    rfl
  | ⟨1, _⟩ =>
    show gather_S1024x2x32x1024_S1024x2x1x1_S1024x2x1x1024_3_2_01_01_2_3_1111024.start j idx 1 + gather_S1024x2x32x1024_S1024x2x1x1_S1024x2x1x1024_3_2_01_01_2_3_1111024.batchCoord j 1 + gather_S1024x2x32x1024_S1024x2x1x1_S1024x2x1x1024_3_2_01_01_2_3_1111024.offCoord j 1 = (j 1).val
    rw [GatherDims.start_batching _ _ _ _ (by decide), GatherDims.offCoord_eq_zero _ _ _ (by decide), Nat.zero_add,
      Nat.add_zero]
    unfold GatherDims.batchCoord
    rw [dif_pos (by decide)]
    rfl
  | ⟨2, _⟩ =>
    show gather_S1024x2x32x1024_S1024x2x1x1_S1024x2x1x1024_3_2_01_01_2_3_1111024.start j idx 2 + gather_S1024x2x32x1024_S1024x2x1x1_S1024x2x1x1024_3_2_01_01_2_3_1111024.batchCoord j 2 + gather_S1024x2x32x1024_S1024x2x1x1_S1024x2x1x1024_3_2_01_01_2_3_1111024.offCoord j 2
      = min (idx (ix4 (j 0) (j 1) 0 0)).toInt.toNat 31
    rw [GatherDims.batchCoord_eq_zero _ _ _ (by decide), GatherDims.offCoord_eq_zero _ _ _ (by decide), Nat.add_zero]
    unfold GatherDims.start
    rw [dif_pos (by decide)]
    have hsi : gather_S1024x2x32x1024_S1024x2x1x1_S1024x2x1x1024_3_2_01_01_2_3_1111024.siIdx j ⟨List.idxOf (2 : Fin 4) gather_S1024x2x32x1024_S1024x2x1x1_S1024x2x1x1024_3_2_01_01_2_3_1111024.startIndexMap, List.idxOf_lt_length_iff.2 (by decide)⟩
        = ix4 (j 0) (j 1) 0 0 := by
      funext b; refine Fin.ext ?_
      match b with
      | ⟨0, _⟩ => rfl
      | ⟨1, _⟩ => rfl
      | ⟨2, _⟩ =>
        have h2 : (j 2).val < 1 := (j 2).isLt
        show (j 2).val = 0
        omega
      | ⟨3, _⟩ => rfl
    rw [hsi]
    rfl
  | ⟨3, _⟩ =>
    show gather_S1024x2x32x1024_S1024x2x1x1_S1024x2x1x1024_3_2_01_01_2_3_1111024.start j idx 3 + gather_S1024x2x32x1024_S1024x2x1x1_S1024x2x1x1024_3_2_01_01_2_3_1111024.batchCoord j 3 + gather_S1024x2x32x1024_S1024x2x1x1_S1024x2x1x1024_3_2_01_01_2_3_1111024.offCoord j 3 = (j 3).val
    rw [GatherDims.batchCoord_eq_zero _ _ _ (by decide)]
    unfold GatherDims.start GatherDims.offCoord
    rw [dif_neg (by decide), dif_pos (by decide), Nat.add_zero, Nat.zero_add]
    rfl

/-! ## An index word below 32, read signed -/

/-- It is not negative. -/
theorem slt_zero (b : BitVec 32) (hb : b.toNat < 32) : IntOp.cmpi .slt b 0#32 = 0#1 := by
  apply eq_zero_of_ne_one
  intro h
  have h' := (StableHlo.Predicate.slt_iff_toNat (a := b) (b := 0#32) (by omega) (by decide)).1 h
  exact absurd h' (Nat.not_lt_zero _)

/-- It is at least 0. -/
theorem sge_zero (b : BitVec 32) (hb : b.toNat < 32) : IntOp.cmpi .sge b 0#32 = 1#1 :=
  (StableHlo.Predicate.sge_iff_toNat (a := b) (b := 0#32) (by omega) (by decide)).2 (Nat.zero_le _)

/-- It is at most 31. -/
theorem sle_31 (b : BitVec 32) (hb : b.toNat < 32) : IntOp.cmpi .sle b 31#32 = 1#1 :=
  (StableHlo.Predicate.sle_iff_toNat (a := b) (b := 31#32) (by omega) (by decide)).2
    (by show b.toNat ≤ 31; omega)

/-- Read signed and clamped into 0..31 it is its value. -/
theorem clamp_idx (b : BitVec 32) (hb : b.toNat < 32) : min b.toInt.toNat 31 = b.toNat := by
  rw [StableHlo.Predicate.toInt_eq_toNat_of_lt (by omega), Int.toNat_natCast]
  omega

/-- The expert it names is its value. -/
theorem expert_eq (b : BitVec 32) (hb : b.toNat < 32) : expert b = ⟨b.toNat, hb⟩ :=
  expert_of_toNat b b.toNat hb rfl

/-! ## The first selection's index array and range mask -/

/-- The index after the wrap of negatives is the index itself, at (t, k, 0, 0). -/
theorem call0_v4_at (x1 : (⟨S1024x2, .i32⟩ : BufTy).Contents (Elt Ideal)) (hr : ∀ i : S1024x2.Idx, (x1 i).toNat < 32) (t : Fin 1024) (k : Fin 2) (u v : Fin 1) :
    Read.val_main_call0_v4 (F := Ideal) x1 (ix4 t k u v) = x1 (ix2 t k) := by
  have e : Read.idx_main_v1 (ix4 t k u v) = ix2 t k := by
    funext a; match a with | ⟨0, _⟩ => rfl | ⟨1, _⟩ => rfl
  rw [Read.val_main_call0_v4_apply, Read.val_main_call0_v1_apply, Read.val_main_v1_apply, Read.val_main_call0_v0_apply,
    Read.val_main_call0_c_apply, e]
  show Scalar.select (IntOp.cmpi .slt (x1 (ix2 t k)) 0#32) _ (x1 (ix2 t k)) = x1 (ix2 t k)
  rw [slt_zero _ (hr _), select_zero]

/-- Reshaped to rank 3 it is still the index itself. -/
theorem call0_v5_at (x1 : (⟨S1024x2, .i32⟩ : BufTy).Contents (Elt Ideal)) (hr : ∀ i : S1024x2.Idx, (x1 i).toNat < 32) (t : Fin 1024) (k : Fin 2) (u : Fin 1) :
    Read.val_main_call0_v5 (F := Ideal) x1 (ix3 t k u) = x1 (ix2 t k) := by
  have e : Read.idx_main_call0_v5 (ix3 t k u) = ix4 t k 0 0 := by
    have h0 : t.val < 1024 := t.isLt
    have h1 : k.val < 2 := k.isLt
    have h2 : u.val < 1 := u.isLt
    funext a; refine Fin.ext ?_
    match a with
    | ⟨0, _⟩ => show ((t.val * 2 + k.val) * 1 + u.val) / 2 = t.val; omega
    | ⟨1, _⟩ => show ((t.val * 2 + k.val) * 1 + u.val) / 1 % 2 = k.val; omega
    | ⟨2, _⟩ => rfl
    | ⟨3, _⟩ => rfl
  rw [Read.val_main_call0_v5_apply, e, call0_v4_at x1 hr]

/-- The range test 0 ≤ index ≤ 31 holds everywhere. -/
theorem call0_v11_one (x1 : (⟨S1024x2, .i32⟩ : BufTy).Contents (Elt Ideal)) (hr : ∀ i : S1024x2.Idx, (x1 i).toNat < 32) (i : S1024x2x1.Idx) :
    Read.val_main_call0_v11 (F := Ideal) x1 i = 1#1 := by
  obtain ⟨t, k, u, rfl⟩ : ∃ t k u, i = ix3 t k u := ⟨i 0, i 1, i 2, eq_ix3 i⟩
  rw [Read.val_main_call0_v11_apply, Read.val_main_call0_v7_apply, Read.val_main_call0_v10_apply, call0_v5_at x1 hr,
    Read.val_main_call0_v6_apply, Read.val_main_call0_c_2_apply, Read.val_main_call0_v9_apply, Read.val_main_call0_v8_apply,
    Read.val_main_call0_c_1_apply]
  show IntOp.andi (IntOp.cmpi .sge (x1 (ix2 t k)) 0#32) (IntOp.cmpi .sle (x1 (ix2 t k)) 31#32) = 1#1
  rw [sge_zero _ (hr _), sle_31 _ (hr _)]
  rfl

/-- So is its reduction over the unit axis. -/
theorem call0_v12_one (x1 : (⟨S1024x2, .i32⟩ : BufTy).Contents (Elt Ideal)) (hr : ∀ i : S1024x2.Idx, (x1 i).toNat < 32) (j : S1024x2.Idx) :
    Read.val_main_call0_v12 (F := Ideal) x1 j = 1#1 := by
  unfold Read.val_main_call0_v12
  exact reduce_andi_of_all _ _ _ _ j (fun _ => rfl) (call0_v11_one x1 hr)

/-! ## The selected gate and up pre-activations -/

/-- The first gather at (t, k, s, h) reads the projections of token t by the expert slot k names. -/
theorem call0_v13_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (t : Fin 1024) (k : Fin 2) (s : Fin 2) (h : Fin 2048) :
    Read.val_main_call0_v13 (F := Ideal) x0 x1 x2 (ix4 t k s h)
      = Read.val_main_v0 (F := Ideal) x0 x2 (ix4 t ⟨(x1 (ix2 t k)).toNat, hr _⟩ s h) := by
  unfold Read.val_main_call0_v13
  refine (gather0_apply (Read.val_main_v0 (F := Ideal) x0 x2) (Read.val_main_call0_v5 (F := Ideal) x1) (ix4 t k s h)).trans ?_
  congr 1
  funext a; refine Fin.ext ?_
  match a with
  | ⟨0, _⟩ => rfl
  | ⟨1, _⟩ =>
    show min (Read.val_main_call0_v5 (F := Ideal) x1 (ix3 t k 0)).toInt.toNat 31 = (x1 (ix2 t k)).toNat
    rw [call0_v5_at x1 hr]
    exact clamp_idx _ (hr _)
  | ⟨2, _⟩ => rfl
  | ⟨3, _⟩ => rfl

/-- The selection, the range mask being 1 everywhere, is that projection. -/
theorem v2_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (t : Fin 1024) (k : Fin 2) (s : Fin 2) (h : Fin 2048) :
    Read.val_main_v2 (F := Ideal) x0 x1 x2 (ix4 t k s h) = proj x0 x2 t (expert (x1 (ix2 t k))) s h := by
  rw [Read.val_main_v2_apply, Read.val_main_call0_v14_apply, call0_v12_one x1 hr]
  show Scalar.select 1#1 (Read.val_main_call0_v13 (F := Ideal) x0 x1 x2 (ix4 t k s h)) _ = _
  rw [select_one, call0_v13_at x0 x1 hr x2, Read.val_main_v0_apply, expert_eq _ (hr _)]
  unfold proj
  refine Finset.sum_congr rfl fun j _ => ?_
  have el : Read.lidx_main_v0 (ix4 t (⟨(x1 (ix2 t k)).toNat, hr _⟩ : Fin 32) s h) j = ix2 t j := by
    funext a; match a with | ⟨0, _⟩ => rfl | ⟨1, _⟩ => rfl
  have er : Read.ridx_main_v0 (ix4 t (⟨(x1 (ix2 t k)).toNat, hr _⟩ : Fin 32) s h) j
      = ix4 (⟨(x1 (ix2 t k)).toNat, hr _⟩ : Fin 32) s h j := by
    funext a; match a with | ⟨0, _⟩ => rfl | ⟨1, _⟩ => rfl | ⟨2, _⟩ => rfl | ⟨3, _⟩ => rfl
  rw [el, er]

/-- The gate pre-activation: the slice s = 0 of the selection, reshaped. -/
theorem v4_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (t : Fin 1024) (k : Fin 2) (h : Fin 2048) :
    Read.val_main_v4 (F := Ideal) x0 x1 x2 (ix3 t k h) = proj x0 x2 t (expert (x1 (ix2 t k))) 0 h := by
  have e : Read.idx_main_v3 (Read.idx_main_v4 (ix3 t k h)) = ix4 t k 0 h := by
    have h0 : t.val < 1024 := t.isLt
    have h1 : k.val < 2 := k.isLt
    have h2 : h.val < 2048 := h.isLt
    funext a; refine Fin.ext ?_
    match a with
    | ⟨0, _⟩ => show ((t.val * 2 + k.val) * 2048 + h.val) / 4096 = t.val; omega
    | ⟨1, _⟩ => show ((t.val * 2 + k.val) * 2048 + h.val) / 2048 % 2 = k.val; omega
    | ⟨2, _⟩ => rfl
    | ⟨3, _⟩ => show ((t.val * 2 + k.val) * 2048 + h.val) % 2048 = h.val; omega
  rw [Read.val_main_v4_apply, Read.val_main_v3_apply, e, v2_at x0 x1 hr x2]

/-- The up pre-activation: the slice s = 1. -/
theorem v7_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (t : Fin 1024) (k : Fin 2) (h : Fin 2048) :
    Read.val_main_v7 (F := Ideal) x0 x1 x2 (ix3 t k h) = proj x0 x2 t (expert (x1 (ix2 t k))) 1 h := by
  have e : Read.idx_main_v6 (Read.idx_main_v7 (ix3 t k h)) = ix4 t k 1 h := by
    have h0 : t.val < 1024 := t.isLt
    have h1 : k.val < 2 := k.isLt
    have h2 : h.val < 2048 := h.isLt
    funext a; refine Fin.ext ?_
    match a with
    | ⟨0, _⟩ => show ((t.val * 2 + k.val) * 2048 + h.val) / 4096 = t.val; omega
    | ⟨1, _⟩ => show ((t.val * 2 + k.val) * 2048 + h.val) / 2048 % 2 = k.val; omega
    | ⟨2, _⟩ => rfl
    | ⟨3, _⟩ => show ((t.val * 2 + k.val) * 2048 + h.val) % 2048 = h.val; omega
  rw [Read.val_main_v7_apply, Read.val_main_v6_apply, e, v2_at x0 x1 hr x2]

/-! ## silu(gate) · up, and the down projection by every expert -/

/-- The pattern of 1.0 denotes 1. -/
theorem ofBits_one : Ideal.ofBits .f32 0x3F800000#32 = 1 := IdealRules.sign_bit.ideal_onePat .f32

/-- silu of the gate: g · 1 / (1 + e^{-g}). -/
theorem v5_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (t : Fin 1024) (k : Fin 2) (h : Fin 2048) :
    Read.val_main_v5 (F := Ideal) x0 x1 x2 (ix3 t k h)
      = proj x0 x2 t (expert (x1 (ix2 t k))) 0 h * Ideal.logistic (proj x0 x2 t (expert (x1 (ix2 t k))) 0 h) := by
  rw [Read.val_main_v5_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply, v4_at x0 x1 hr x2]
  show proj x0 x2 t (expert (x1 (ix2 t k))) 0 h
      * Ideal.div (Ideal.ofBits .f32 0x3F800000#32)
          (Ideal.ofBits .f32 0x3F800000#32 + Ideal.exp (-(proj x0 x2 t (expert (x1 (ix2 t k))) 0 h))) = _
  rw [ofBits_one]
  rfl

/-- The hidden row. -/
theorem v8_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (t : Fin 1024) (k : Fin 2) (h : Fin 2048) :
    Read.val_main_v8 (F := Ideal) x0 x1 x2 (ix3 t k h) = hidden x0 x2 t (expert (x1 (ix2 t k))) h := by
  rw [Read.val_main_v8_apply, v5_at x0 x1 hr x2, v7_at x0 x1 hr x2]
  rfl

/-- The down projection of token t's slot-k hidden row by expert e. -/
theorem v9_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (x3 : (⟨S32x1024x2048, .f32⟩ : BufTy).Contents (Elt Ideal)) (t : Fin 1024) (k : Fin 2) (e : Fin 32) (d : Fin 1024) :
    Read.val_main_v9 (F := Ideal) x0 x1 x2 x3 (ix4 t k e d)
      = ∑ h : Fin 2048, hidden x0 x2 t (expert (x1 (ix2 t k))) h * x3 (ix3 e d h) := by
  rw [Read.val_main_v9_apply]
  refine Finset.sum_congr rfl fun h _ => ?_
  have el : Read.lidx_main_v9 (ix4 t k e d) h = ix3 t k h := by
    funext a; match a with | ⟨0, _⟩ => rfl | ⟨1, _⟩ => rfl | ⟨2, _⟩ => rfl
  have er : Read.ridx_main_v9 (ix4 t k e d) h = ix3 e d h := by
    funext a; match a with | ⟨0, _⟩ => rfl | ⟨1, _⟩ => rfl | ⟨2, _⟩ => rfl
  rw [el, er, v8_at x0 x1 hr x2]

/-! ## The second selection: the slot's own expert among the 32 down projections -/

/-- The index after the wrap of negatives is the index itself. -/
theorem call2_v4_at (x1 : (⟨S1024x2, .i32⟩ : BufTy).Contents (Elt Ideal)) (hr : ∀ i : S1024x2.Idx, (x1 i).toNat < 32) (t : Fin 1024) (k : Fin 2) (u v : Fin 1) :
    Read.val_main_call2_v4 (F := Ideal) x1 (ix4 t k u v) = x1 (ix2 t k) := by
  have e : Read.idx_main_v10 (ix4 t k u v) = ix2 t k := by
    funext a; match a with | ⟨0, _⟩ => rfl | ⟨1, _⟩ => rfl
  rw [Read.val_main_call2_v4_apply, Read.val_main_call2_v1_apply, Read.val_main_v10_apply, Read.val_main_call2_v0_apply,
    Read.val_main_call2_c_apply, e]
  show Scalar.select (IntOp.cmpi .slt (x1 (ix2 t k)) 0#32) _ (x1 (ix2 t k)) = x1 (ix2 t k)
  rw [slt_zero _ (hr _), select_zero]

/-- The range test 0 ≤ index ≤ 31 holds everywhere. -/
theorem call2_v10_one (x1 : (⟨S1024x2, .i32⟩ : BufTy).Contents (Elt Ideal)) (hr : ∀ i : S1024x2.Idx, (x1 i).toNat < 32) (i : S1024x2x1x1.Idx) :
    Read.val_main_call2_v10 (F := Ideal) x1 i = 1#1 := by
  obtain ⟨t, k, u, v, rfl⟩ : ∃ t k u v, i = ix4 t k u v := ⟨i 0, i 1, i 2, i 3, eq_ix4 i⟩
  rw [Read.val_main_call2_v10_apply, Read.val_main_call2_v6_apply, Read.val_main_call2_v9_apply, call2_v4_at x1 hr,
    Read.val_main_call2_v5_apply, Read.val_main_call2_c_2_apply, Read.val_main_call2_v8_apply, Read.val_main_call2_v7_apply,
    Read.val_main_call2_c_1_apply]
  show IntOp.andi (IntOp.cmpi .sge (x1 (ix2 t k)) 0#32) (IntOp.cmpi .sle (x1 (ix2 t k)) 31#32) = 1#1
  rw [sge_zero _ (hr _), sle_31 _ (hr _)]
  rfl

/-- So is its reduction over the unit axis. -/
theorem call2_v11_one (x1 : (⟨S1024x2, .i32⟩ : BufTy).Contents (Elt Ideal)) (hr : ∀ i : S1024x2.Idx, (x1 i).toNat < 32) (j : S1024x2x1.Idx) :
    Read.val_main_call2_v11 (F := Ideal) x1 j = 1#1 := by
  unfold Read.val_main_call2_v11
  exact reduce_andi_of_all _ _ _ _ j (fun _ => rfl) (call2_v10_one x1 hr)

/-- The second gather at (t, k, 0, d) reads the down projection by the expert slot k names. -/
theorem call2_v12_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (x3 : (⟨S32x1024x2048, .f32⟩ : BufTy).Contents (Elt Ideal)) (t : Fin 1024) (k : Fin 2) (u : Fin 1) (d : Fin 1024) :
    Read.val_main_call2_v12 (F := Ideal) x0 x1 x2 x3 (ix4 t k u d)
      = Read.val_main_v9 (F := Ideal) x0 x1 x2 x3 (ix4 t k ⟨(x1 (ix2 t k)).toNat, hr _⟩ d) := by
  unfold Read.val_main_call2_v12
  refine (gather2_apply (Read.val_main_v9 (F := Ideal) x0 x1 x2 x3) (Read.val_main_call2_v4 (F := Ideal) x1) (ix4 t k u d)).trans ?_
  congr 1
  funext a; refine Fin.ext ?_
  match a with
  | ⟨0, _⟩ => rfl
  | ⟨1, _⟩ => rfl
  | ⟨2, _⟩ =>
    show min (Read.val_main_call2_v4 (F := Ideal) x1 (ix4 t k 0 0)).toInt.toNat 31 = (x1 (ix2 t k)).toNat
    rw [call2_v4_at x1 hr]
    exact clamp_idx _ (hr _)
  | ⟨3, _⟩ => rfl

/-- The selection, the range mask being 1 everywhere, is the layer's value. -/
theorem v11_at (x0 : (⟨S1024x1024, .f32⟩ : BufTy).Contents (Elt Ideal)) (x1 : (⟨S1024x2, .i32⟩ : BufTy).Contents (Elt Ideal)) (hr : ∀ i : S1024x2.Idx, (x1 i).toNat < 32)
    (x2 : (⟨S32x2x2048x1024, .f32⟩ : BufTy).Contents (Elt Ideal)) (x3 : (⟨S32x1024x2048, .f32⟩ : BufTy).Contents (Elt Ideal)) (t : Fin 1024) (k : Fin 2) (u : Fin 1) (d : Fin 1024) :
    Read.val_main_v11 (F := Ideal) x0 x1 x2 x3 (ix4 t k u d) = down x0 x2 x3 t (expert (x1 (ix2 t k))) d := by
  rw [Read.val_main_v11_apply, Read.val_main_call2_v13_apply, call2_v11_one x1 hr]
  show Scalar.select 1#1 (Read.val_main_call2_v12 (F := Ideal) x0 x1 x2 x3 (ix4 t k u d)) _ = _
  rw [select_one, call2_v12_at x0 x1 hr x2 x3, v9_at x0 x1 hr x2 x3, expert_eq _ (hr _)]
  rfl

/-! ## The result -/

/-- The reference's last stage is the layer, where the indices are in range. -/
theorem ref_eq (x0 : (⟨S1024x1024, .f32⟩ : BufTy).Contents (Elt Ideal)) (x1 : (⟨S1024x2, .i32⟩ : BufTy).Contents (Elt Ideal))
    (x2 : (⟨S32x2x2048x1024, .f32⟩ : BufTy).Contents (Elt Ideal)) (x3 : (⟨S32x1024x2048, .f32⟩ : BufTy).Contents (Elt Ideal))
    (hr : ∀ i : S1024x2.Idx, (x1 i).toNat < 32) :
    Cert.ReferenceIdeal.Read.val_main_v12 (F := Ideal) x0 x1 x2 x3 = moe x0 x1 x2 x3 := by
  funext i
  obtain ⟨t, k, d, rfl⟩ : ∃ t k d, i = ix3 t k d := ⟨i 0, i 1, i 2, eq_ix3 i⟩
  have e : Read.idx_main_v12 (ix3 t k d) = ix4 t k 0 d := by
    have h0 : t.val < 1024 := t.isLt
    have h1 : k.val < 2 := k.isLt
    have h2 : d.val < 1024 := d.isLt
    funext a; refine Fin.ext ?_
    match a with
    | ⟨0, _⟩ => show ((t.val * 2 + k.val) * 1024 + d.val) / 2048 = t.val; omega
    | ⟨1, _⟩ => show ((t.val * 2 + k.val) * 1024 + d.val) / 1024 % 2 = k.val; omega
    | ⟨2, _⟩ => rfl
    | ⟨3, _⟩ => show ((t.val * 2 + k.val) * 1024 + d.val) % 1024 = d.val; omega
  rw [Read.val_main_v12_apply, e, v11_at x0 x1 hr x2 x3]
  rfl

end Cert.ReferenceIdeal.RefValue

end
-- ==== Proof.KPieces.lean ====
/-
  What one run of the kernel body leaves behind, as values at the ideal instance. At a grid point (tile, e) the body adds
  expert e's masked contribution for the tile (`contribBlk` of the point's four input blocks) to the accumulator: at
  e = 0 to the zero block it has just stored, at every other e to what the point before left; at e = 31 it also copies
  the new accumulator to the output block.

  Two layers. First, each piece a control case leaves is the body's stored payload applied to the blocks the body
  loads: the tile's rows, the expert's gate matrix and its up matrix (the two halves of its [1, 2, 2048, 1024] block,
  loaded separately), its down matrix, the slot words, and the accumulator (the zero block at the first expert, what
  the point before left otherwise). Second, that payload read at row r and column k · 1024 + d: a sum of two products
  into zero is a plain sum over the shared axis, a change of float format is the identity, the logistic is the
  logistic, the compare-widen-convert chain is the 0/1 indicator, and the side-by-side concatenation puts slot k's
  part at columns k · 1024 … k · 1024 + 1023.
-/
import proofs.«411968_j2018634629557_2_alg».proof.Proof.Gen.KernelIdeal.Frame
import proofs.«411968_j2018634629557_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pieces

open Cert.KernelIdeal Cert.KernelIdeal.Gen Cert.MoeSpec Idealize.ShloMosaic Idealize.ShloMosaic.TcCoe Idealize.ShloMosaic.ValueIdx

/-! ## What each case's pieces are: the stored payload of the loaded blocks -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First expert: the accumulator is stored twice, the zero block and then the sum that covers it; the sum's loaded
    accumulator is the zero block read back. -/
theorem sout_A_eq (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i) (x0 : Vec F S512x1024 .bf16) (x1 : Vec F S1x2x2048x1024 .bf16) (x2 : Vec F S1x1024x2048 .bf16) (x3 : Vec F S512x2 .i32) :
    sout0_A_0 c i arg2 harg2 arg3 harg3 arg4 harg4 arg5 harg5 arg6 harg6 arg7 harg7 hc0 hc1 x0 x1 x2 x3
      = k0_pay3 i x0 (View.ld (Val := Elt F) (e' := .bf16) x1 (Rect.unit (s := S1x2x2048x1024) ![0, 0, 0, 0] S1x1x2048x1024.size inb_S1x2x2048x1024_S1x1x2048x1024_0_0_0_0)) (View.ld (Val := Elt F) (e' := .bf16) x1 (Rect.unit (s := S1x2x2048x1024) ![0, 1, 0, 0] S1x1x2048x1024.size inb_S1x2x2048x1024_S1x1x2048x1024_0_1_0_0)) x2 x3 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz2]
  unfold k0_pay1
  simp only [View.readAt_eq_ld, harg2.read_unread, harg3.read_unread, harg4.read_unread, harg5.read_unread, harg7.read_unread, View.ld_unit_zero (S := S512x2048) hz2, View.ld_unit_zero (S := S512x1024) hz2, View.ld_unit_zero (S := S512x2) hz2, View.ld_unit_zero (S := S1x1024x2048) hz3, shapeCast_self, View.readCov_unit_zero (S := S512x2048) _ hz2]

/-- A middle expert: one store, of the sum over what the point before left. -/
theorem sout_B_eq (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i) (x0 : Vec F S512x1024 .bf16) (x1 : Vec F S1x2x2048x1024 .bf16) (x2 : Vec F S1x1024x2048 .bf16) (x3 : Vec F S512x2 .i32) (xs0 : Vec F S512x2048 .f32) :
    sout0_B_0 c i arg2 harg2 arg3 harg3 arg4 harg4 arg5 harg5 arg6 harg6 arg7 harg7 hc0 hc1 x0 x1 x2 x3 xs0
      = k0_pay3 i x0 (View.ld (Val := Elt F) (e' := .bf16) x1 (Rect.unit (s := S1x2x2048x1024) ![0, 0, 0, 0] S1x1x2048x1024.size inb_S1x2x2048x1024_S1x1x2048x1024_0_0_0_0)) (View.ld (Val := Elt F) (e' := .bf16) x1 (Rect.unit (s := S1x2x2048x1024) ![0, 1, 0, 0] S1x1x2048x1024.size inb_S1x2x2048x1024_S1x1x2048x1024_0_1_0_0)) x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  unfold k0_pay1
  simp only [View.readAt_eq_ld, harg2.read_unread, harg3.read_unread, harg4.read_unread, harg5.read_unread, harg7.read_unread, View.ld_unit_zero (S := S512x2048) hz2, View.ld_unit_zero (S := S512x1024) hz2, View.ld_unit_zero (S := S512x2) hz2, View.ld_unit_zero (S := S1x1024x2048) hz3, shapeCast_self]

/-- The last expert, in the accumulator: the same one store. -/
theorem sout_C_eq (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x1024 .bf16) (x1 : Vec F S1x2x2048x1024 .bf16) (x2 : Vec F S1x1024x2048 .bf16) (x3 : Vec F S512x2 .i32) (xs0 : Vec F S512x2048 .f32) :
    sout0_C_0 c i arg2 harg2 arg3 harg3 arg4 harg4 arg5 harg5 arg6 harg6 arg7 harg7 hc0 hc1 x0 x1 x2 x3 xs0
      = k0_pay3 i x0 (View.ld (Val := Elt F) (e' := .bf16) x1 (Rect.unit (s := S1x2x2048x1024) ![0, 0, 0, 0] S1x1x2048x1024.size inb_S1x2x2048x1024_S1x1x2048x1024_0_0_0_0)) (View.ld (Val := Elt F) (e' := .bf16) x1 (Rect.unit (s := S1x2x2048x1024) ![0, 1, 0, 0] S1x1x2048x1024.size inb_S1x2x2048x1024_S1x1x2048x1024_0_1_0_0)) x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  unfold k0_pay1
  simp only [View.readAt_eq_ld, harg2.read_unread, harg3.read_unread, harg4.read_unread, harg5.read_unread, harg7.read_unread, View.ld_unit_zero (S := S512x2048) hz2, View.ld_unit_zero (S := S512x1024) hz2, View.ld_unit_zero (S := S512x2) hz2, View.ld_unit_zero (S := S1x1024x2048) hz3, shapeCast_self]

/-- The last expert, in the output block: the accumulator just stored, loaded back and stored there. -/
theorem out_C_eq (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (x0 : Vec F S512x1024 .bf16) (x1 : Vec F S1x2x2048x1024 .bf16) (x2 : Vec F S1x1024x2048 .bf16) (x3 : Vec F S512x2 .i32) (xs0 : Vec F S512x2048 .f32) :
    out0_C_4 c i arg2 harg2 arg3 harg3 arg4 harg4 arg5 harg5 arg6 harg6 arg7 harg7 hc0 hc1 x0 x1 x2 x3 xs0
      = k0_pay3 i x0 (View.ld (Val := Elt F) (e' := .bf16) x1 (Rect.unit (s := S1x2x2048x1024) ![0, 0, 0, 0] S1x1x2048x1024.size inb_S1x2x2048x1024_S1x1x2048x1024_0_0_0_0)) (View.ld (Val := Elt F) (e' := .bf16) x1 (Rect.unit (s := S1x2x2048x1024) ![0, 1, 0, 0] S1x1x2048x1024.size inb_S1x2x2048x1024_S1x1x2048x1024_0_1_0_0)) x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  unfold k0_pay1
  simp only [View.readAt_eq_ld, harg2.read_unread, harg3.read_unread, harg4.read_unread, harg5.read_unread, harg7.read_unread, View.ld_unit_zero (S := S512x2048) hz2, View.ld_unit_zero (S := S512x1024) hz2, View.ld_unit_zero (S := S512x2) hz2, View.ld_unit_zero (S := S1x1024x2048) hz3, shapeCast_self, View.readCov_unit_zero (S := S512x2048) _ hz2]

end Pieces

/-! ## The body's arithmetic, stage by stage

The payload the body stores is: the accumulator it loaded, plus, laid side by side for the two slots, the slot's
indicator column times the expert's down projection of the tile. The stages below name its parts. -/

section Stages
variable {F : FTy → Type} [FloatOps F]

/-- The tile's rows against the rows of one [2048, 1024] matrix of the expert (its gate or its up matrix), summed
    from zero: the pre-activations. -/
def tileProj (x : Vec F S512x1024 .bf16) (w : Vec F S1x1x2048x1024 .bf16) : FVec F S512x2048 .f32 :=
  matmul dot_S512x1024_S2048x1024_S512x2048_1_1_0_0_n_n none (shapeCast S512x1024 x shapeCasts_S512x1024_S512x1024)
    (shapeCast S2048x1024 w shapeCasts_S1x1x2048x1024_S2048x1024) (constant S512x2048 .f32 0x00000000#32)

/-- silu(gate) · up, entry by entry. -/
def tileHidden (x : Vec F S512x1024 .bf16) (wg wu : Vec F S1x1x2048x1024 .bf16) : FVec F S512x2048 .bf16 :=
  truncf .bf16 (mulf (mulf (tileProj x wg) (logistic (tileProj x wg))) (tileProj x wu)) bitsLt_bf16_f32

/-- The hidden rows against the rows of the expert's [1024, 2048] down matrix, summed from zero. -/
def tileDown (hd : FVec F S512x2048 .bf16) (wd : Vec F S1x1024x2048 .bf16) : FVec F S512x1024 .f32 :=
  matmul dot_S512x2048_S1024x2048_S512x1024_1_1_0_0_n_n none hd (shapeCast S1024x2048 wd shapeCasts_S1x1024x2048_S1024x2048)
    (constant S512x1024 .f32 0x00000000#32)

/-- The indicator "this slot names the grid point's expert", as a float, per row and slot. -/
def slotMask (i : grid0.Coords) (ib : Vec F S512x2 .i32) : FVec F S512x2 .f32 :=
  sitofp .f32 (extui 32 (cmpi .eq ib (broadcast S512x2 (BitVec.ofNat 32 (i 1).val))) natLt_1_32)

/-- Slot 0's indicator column times the projection, beside slot 1's indicator column times the projection. -/
def slotSpread (m : FVec F S512x2 .f32) (y : FVec F S512x1024 .f32) : FVec F S512x2048 .f32 :=
  concatenate S512x2048 1
    [⟨S512x1024, mulf (broadcastTo S512x1024 (extractStridedSlice S512x1 ![0, 0] m slices_S512x2_o0_0_S512x1) broadcasts_S512x1_S512x1024) y⟩,
     ⟨S512x1024, mulf (broadcastTo S512x1024 (extractStridedSlice S512x1 ![0, 1] m slices_S512x2_o0_1_S512x1) broadcasts_S512x1_S512x1024) y⟩]
    concatenates_S512x1024_S512x1024_S512x2048_d1

/-- The stored payload is the loaded accumulator plus the spread of the masked down projection. -/
theorem pay3_eq (i : grid0.Coords) (x0 : Vec F S512x1024 .bf16) (v5 v7 : Vec F S1x1x2048x1024 .bf16)
    (x2 : Vec F S1x1024x2048 .bf16) (x3 : Vec F S512x2 .i32) (v30 : Vec F S512x2048 .f32) :
    k0_pay3 i x0 v5 v7 x2 x3 v30
      = addf v30 (slotSpread (slotMask i x3) (tileDown (tileHidden x0 v5 v7) x2)) := rfl

end Stages

/-! ### The two products at an entry -/

theorem gu_lhs_0 (p : S512x2048.Idx) (q : dot_S512x1024_S2048x1024_S512x2048_1_1_0_0_n_n.contr.Idx) :
    (dot_S512x1024_S2048x1024_S512x2048_1_1_0_0_n_n.lhsIdx p q 0).val = (p 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem gu_lhs_1 (p : S512x2048.Idx) (q : dot_S512x1024_S2048x1024_S512x2048_1_1_0_0_n_n.contr.Idx) :
    (dot_S512x1024_S2048x1024_S512x2048_1_1_0_0_n_n.lhsIdx p q 1).val = (q ⟨0, by decide⟩).val :=
  dot_S512x1024_S2048x1024_S512x2048_1_1_0_0_n_n.lhsIdx_val_of_single rfl p q
theorem gu_rhs_0 (p : S512x2048.Idx) (q : dot_S512x1024_S2048x1024_S512x2048_1_1_0_0_n_n.contr.Idx) :
    (dot_S512x1024_S2048x1024_S512x2048_1_1_0_0_n_n.rhsIdx p q 0).val = (p 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem gu_rhs_1 (p : S512x2048.Idx) (q : dot_S512x1024_S2048x1024_S512x2048_1_1_0_0_n_n.contr.Idx) :
    (dot_S512x1024_S2048x1024_S512x2048_1_1_0_0_n_n.rhsIdx p q 1).val = (q ⟨0, by decide⟩).val :=
  dot_S512x1024_S2048x1024_S512x2048_1_1_0_0_n_n.rhsIdx_val_of_single rfl p q

/-- Entry (r, h) of the first kind of product: the sum over the shared axis of row r times row h. -/
theorem gu_apply (a : FVec Ideal S512x1024 .bf16) (b : FVec Ideal S2048x1024 .bf16) (r : Fin 512) (h : Fin 2048) :
    matmul (F := Ideal) dot_S512x1024_S2048x1024_S512x2048_1_1_0_0_n_n none a b (constant (F := Ideal) S512x2048 .f32 0x00000000#32) (ix2 r h)
      = ∑ j : Fin 1024, a (ix2 r j) * b (ix2 h j) := by
  simp only [matmul]
  rw [Ideal.matmul_constant_zero_apply, ← Equiv.sum_comp (contrEquiv1 dot_S512x1024_S2048x1024_S512x2048_1_1_0_0_n_n 1024 rfl rfl).symm]
  refine Finset.sum_congr rfl fun j _ => ?_
  have hj := contrEquiv1_symm_val dot_S512x1024_S2048x1024_S512x2048_1_1_0_0_n_n 1024 rfl rfl j
  have el : dot_S512x1024_S2048x1024_S512x2048_1_1_0_0_n_n.lhsIdx (ix2 r h) ((contrEquiv1 dot_S512x1024_S2048x1024_S512x2048_1_1_0_0_n_n 1024 rfl rfl).symm j) = ix2 r j := funext fun t => Fin.ext (by
    match t with
    | ⟨0, _⟩ => exact gu_lhs_0 _ _
    | ⟨1, _⟩ => exact (gu_lhs_1 _ _).trans hj)
  have er : dot_S512x1024_S2048x1024_S512x2048_1_1_0_0_n_n.rhsIdx (ix2 r h) ((contrEquiv1 dot_S512x1024_S2048x1024_S512x2048_1_1_0_0_n_n 1024 rfl rfl).symm j) = ix2 h j := funext fun t => Fin.ext (by
    match t with
    | ⟨0, _⟩ => exact gu_rhs_0 _ _
    | ⟨1, _⟩ => exact (gu_rhs_1 _ _).trans hj)
  rw [el, er]

theorem dn_lhs_0 (p : S512x1024.Idx) (q : dot_S512x2048_S1024x2048_S512x1024_1_1_0_0_n_n.contr.Idx) :
    (dot_S512x2048_S1024x2048_S512x1024_1_1_0_0_n_n.lhsIdx p q 0).val = (p 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem dn_lhs_1 (p : S512x1024.Idx) (q : dot_S512x2048_S1024x2048_S512x1024_1_1_0_0_n_n.contr.Idx) :
    (dot_S512x2048_S1024x2048_S512x1024_1_1_0_0_n_n.lhsIdx p q 1).val = (q ⟨0, by decide⟩).val :=
  dot_S512x2048_S1024x2048_S512x1024_1_1_0_0_n_n.lhsIdx_val_of_single rfl p q
theorem dn_rhs_0 (p : S512x1024.Idx) (q : dot_S512x2048_S1024x2048_S512x1024_1_1_0_0_n_n.contr.Idx) :
    (dot_S512x2048_S1024x2048_S512x1024_1_1_0_0_n_n.rhsIdx p q 0).val = (p 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem dn_rhs_1 (p : S512x1024.Idx) (q : dot_S512x2048_S1024x2048_S512x1024_1_1_0_0_n_n.contr.Idx) :
    (dot_S512x2048_S1024x2048_S512x1024_1_1_0_0_n_n.rhsIdx p q 1).val = (q ⟨0, by decide⟩).val :=
  dot_S512x2048_S1024x2048_S512x1024_1_1_0_0_n_n.rhsIdx_val_of_single rfl p q

/-- Entry (r, d) of the second kind of product: the sum over the hidden axis of row r times row d. -/
theorem dn_apply (a : FVec Ideal S512x2048 .bf16) (b : FVec Ideal S1024x2048 .bf16) (r : Fin 512) (d : Fin 1024) :
    matmul (F := Ideal) dot_S512x2048_S1024x2048_S512x1024_1_1_0_0_n_n none a b (constant (F := Ideal) S512x1024 .f32 0x00000000#32) (ix2 r d)
      = ∑ h : Fin 2048, a (ix2 r h) * b (ix2 d h) := by
  simp only [matmul]
  rw [Ideal.matmul_constant_zero_apply, ← Equiv.sum_comp (contrEquiv1 dot_S512x2048_S1024x2048_S512x1024_1_1_0_0_n_n 2048 rfl rfl).symm]
  refine Finset.sum_congr rfl fun h _ => ?_
  have hh := contrEquiv1_symm_val dot_S512x2048_S1024x2048_S512x1024_1_1_0_0_n_n 2048 rfl rfl h
  have el : dot_S512x2048_S1024x2048_S512x1024_1_1_0_0_n_n.lhsIdx (ix2 r d) ((contrEquiv1 dot_S512x2048_S1024x2048_S512x1024_1_1_0_0_n_n 2048 rfl rfl).symm h) = ix2 r h := funext fun t => Fin.ext (by
    match t with
    | ⟨0, _⟩ => exact dn_lhs_0 _ _
    | ⟨1, _⟩ => exact (dn_lhs_1 _ _).trans hh)
  have er : dot_S512x2048_S1024x2048_S512x1024_1_1_0_0_n_n.rhsIdx (ix2 r d) ((contrEquiv1 dot_S512x2048_S1024x2048_S512x1024_1_1_0_0_n_n 2048 rfl rfl).symm h) = ix2 d h := funext fun t => Fin.ext (by
    match t with
    | ⟨0, _⟩ => exact dn_rhs_0 _ _
    | ⟨1, _⟩ => exact (dn_rhs_1 _ _).trans hh)
  rw [el, er]

/-! ### The layout stages at an entry -/

/-- A [1, 1, 2048, 1024] block viewed as [2048, 1024]: entry (h, j) is entry (0, 0, h, j). -/
theorem castW_apply {α : Type} (v : S1x1x2048x1024.Idx → α) (h : Fin 2048) (j : Fin 1024) :
    shapeCast S2048x1024 v shapeCasts_S1x1x2048x1024_S2048x1024 (ix2 h j) = v (ix4 0 0 h j) := by
  refine shapeCast_apply v _ (ix2 h j) (ix4 0 0 h j) ?_
  rw [Shape.rowMajor_val_four, Shape.rowMajor_val_two]
  show ((0 * 1 + 0) * 2048 + h.val) * 1024 + j.val = h.val * 1024 + j.val
  omega

/-- A [1, 1024, 2048] block viewed as [1024, 2048]: entry (d, h) is entry (0, d, h). -/
theorem castD_apply {α : Type} (v : S1x1024x2048.Idx → α) (d : Fin 1024) (h : Fin 2048) :
    shapeCast S1024x2048 v shapeCasts_S1x1024x2048_S1024x2048 (ix2 d h) = v (ix3 0 d h) := by
  refine shapeCast_apply v _ (ix2 d h) (ix3 0 d h) ?_
  rw [Shape.rowMajor_val_three, Shape.rowMajor_val_two]
  show (0 * 1024 + d.val) * 2048 + h.val = d.val * 2048 + h.val
  omega

/-- The gate half of the expert's [1, 2, 2048, 1024] block, as loaded: entry (0, 0, h, j) is the block's (0, 0, h, j). -/
theorem gate_ld (x1 : Vec Ideal S1x2x2048x1024 .bf16) (h : Fin 2048) (j : Fin 1024) :
    View.ld (Val := Elt Ideal) (e' := .bf16) x1 (Rect.unit (s := S1x2x2048x1024) ![0, 0, 0, 0] S1x1x2048x1024.size inb_S1x2x2048x1024_S1x1x2048x1024_0_0_0_0)
        (ix4 (0 : Fin 1) (0 : Fin 1) h j) = x1 (ix4 0 0 h j) := by
  show x1 _ = x1 _
  refine congrArg x1 (funext fun t => Fin.ext ?_)
  match t with
  | ⟨0, _⟩ => rfl
  | ⟨1, _⟩ => rfl
  | ⟨2, _⟩ => show 0 + 1 * h.val = h.val; omega
  | ⟨3, _⟩ => show 0 + 1 * j.val = j.val; omega

/-- The up half, loaded one step along axis 1: entry (0, 0, h, j) is the block's (0, 1, h, j). -/
theorem up_ld (x1 : Vec Ideal S1x2x2048x1024 .bf16) (h : Fin 2048) (j : Fin 1024) :
    View.ld (Val := Elt Ideal) (e' := .bf16) x1 (Rect.unit (s := S1x2x2048x1024) ![0, 1, 0, 0] S1x1x2048x1024.size inb_S1x2x2048x1024_S1x1x2048x1024_0_1_0_0)
        (ix4 (0 : Fin 1) (0 : Fin 1) h j) = x1 (ix4 0 1 h j) := by
  show x1 _ = x1 _
  refine congrArg x1 (funext fun t => Fin.ext ?_)
  match t with
  | ⟨0, _⟩ => rfl
  | ⟨1, _⟩ => rfl
  | ⟨2, _⟩ => show 0 + 1 * h.val = h.val; omega
  | ⟨3, _⟩ => show 0 + 1 * j.val = j.val; omega

/-- The indicator at row r and slot k: 1 when the slot's word is the point's expert, else 0. -/
theorem slotMask_apply (i : grid0.Coords) (ib : Vec Ideal S512x2 .i32) (r : Fin 512) (k : Fin 2) :
    slotMask (F := Ideal) i ib (ix2 r k) = maskOf (ib (ix2 r k)) (i 1).val := by
  show ((((IntOp.cmpi .eq (ib (ix2 r k)) (BitVec.ofNat 32 (i 1).val)).setWidth 32).toInt : ℝ) : EReal) = _
  unfold maskOf IntOp.cmpi
  by_cases hb : ib (ix2 r k) = BitVec.ofNat 32 (i 1).val
  · have h1 : (ib (ix2 r k) == BitVec.ofNat 32 (i 1).val) = true := by rw [hb]; exact beq_self_eq_true _
    have h2 : ((BitVec.ofBool true).setWidth 32).toInt = 1 := by decide
    rw [if_pos hb]
    simp only [h1, h2]
    simp
  · have h1 : (ib (ix2 r k) == BitVec.ofNat 32 (i 1).val) = false := beq_eq_false_iff_ne.mpr hb
    have h2 : ((BitVec.ofBool false).setWidth 32).toInt = 0 := by decide
    rw [if_neg hb]
    simp only [h1, h2]
    simp

/-- A slot's indicator column, broadcast along the row: at (r, d) it is the indicator at (r, slot). -/
theorem column_apply (m : FVec Ideal S512x2 .f32) (s : Fin 2) (hs : S512x2.Slices ![0, s.val] S512x1) (r : Fin 512) (d : Fin 1024) :
    broadcastTo S512x1024 (extractStridedSlice S512x1 ![0, s.val] m hs) broadcasts_S512x1_S512x1024 (ix2 r d) = m (ix2 r s) := by
  refine (broadcastTo_apply _ _ (ix2 r d) (ix2 r (0 : Fin 1)) (fun t => ?_)).trans ?_
  · match t with
    | ⟨0, _⟩ => rfl
    | ⟨1, _⟩ => rfl
  · show m _ = m _
    refine congrArg m (funext fun t => Fin.ext ?_)
    match t with
    | ⟨0, _⟩ => show 0 + r.val = r.val; omega
    | ⟨1, _⟩ => show s.val + 0 = s.val; omega

/-- The spread at column k · 1024 + d of row r: slot k's indicator times the projection at (r, d). -/
theorem slotSpread_apply (m : FVec Ideal S512x2 .f32) (y : FVec Ideal S512x1024 .f32) (r : Fin 512) (k : Fin 2) (d : Fin 1024) :
    slotSpread (F := Ideal) m y (ix2 r (col k d)) = m (ix2 r k) * y (ix2 r d) := by
  unfold slotSpread
  match k with
  | ⟨0, _⟩ =>
    refine (concatenate_pair_apply_left (s₁ := S512x1024) (s₂ := S512x1024) (1 : Fin S512x2048.rank) _ _ _ (ix2 r (col ⟨0, _⟩ d)) rfl (ix2 r d) (fun t => ?_)).trans ?_
    · match t with
      | ⟨0, _⟩ => rfl
      | ⟨1, _⟩ => show d.val = 0 * 1024 + d.val; omega
    · exact congrArg (· * y (ix2 r d)) (column_apply m (0 : Fin 2) slices_S512x2_o0_0_S512x1 r d)
  | ⟨1, _⟩ =>
    refine (concatenate_pair_apply_right (s₁ := S512x1024) (s₂ := S512x1024) (1 : Fin S512x2048.rank) _ _ _ (ix2 r (col ⟨1, _⟩ d)) rfl rfl (ix2 r d) (fun t ht => ?_) ?_).trans ?_
    · match t with
      | ⟨0, _⟩ => rfl
      | ⟨1, _⟩ => exact absurd rfl ht
    · show d.val + 1024 = 1 * 1024 + d.val; omega
    · exact congrArg (· * y (ix2 r d)) (column_apply m (1 : Fin 2) slices_S512x2_o0_1_S512x1 r d)

/-! ### The stages at an entry, and the payload -/

/-- A pre-activation at (r, h): row r of the tile against row h of the matrix. -/
theorem tileProj_apply (x : Vec Ideal S512x1024 .bf16) (w : Vec Ideal S1x1x2048x1024 .bf16) (r : Fin 512) (h : Fin 2048) :
    tileProj (F := Ideal) x w (ix2 r h) = ∑ j : Fin 1024, x (ix2 r j) * w (ix4 0 0 h j) := by
  unfold tileProj
  rw [shapeCast_self]
  refine (gu_apply _ _ r h).trans ?_
  exact Finset.sum_congr rfl fun j _ => congrArg (x (ix2 r j) * ·) (castW_apply w h j)

/-- A hidden entry at (r, h): silu of the gate pre-activation times the up pre-activation. -/
theorem tileHidden_apply (x : Vec Ideal S512x1024 .bf16) (wg wu : Vec Ideal S1x1x2048x1024 .bf16) (r : Fin 512) (h : Fin 2048) :
    tileHidden (F := Ideal) x wg wu (ix2 r h)
      = ((∑ j : Fin 1024, x (ix2 r j) * wg (ix4 0 0 h j)) * Ideal.logistic (∑ j : Fin 1024, x (ix2 r j) * wg (ix4 0 0 h j)))
          * (∑ j : Fin 1024, x (ix2 r j) * wu (ix4 0 0 h j)) := by
  show (tileProj (F := Ideal) x wg (ix2 r h) * Ideal.logistic (tileProj (F := Ideal) x wg (ix2 r h))) * tileProj (F := Ideal) x wu (ix2 r h) = _
  rw [tileProj_apply, tileProj_apply]

/-- The down projection at (r, d): the hidden row r against row d of the down matrix. -/
theorem tileDown_apply (hd : FVec Ideal S512x2048 .bf16) (wd : Vec Ideal S1x1024x2048 .bf16) (r : Fin 512) (d : Fin 1024) :
    tileDown (F := Ideal) hd wd (ix2 r d) = ∑ h : Fin 2048, hd (ix2 r h) * wd (ix3 0 d h) := by
  unfold tileDown
  refine (dn_apply _ _ r d).trans ?_
  exact Finset.sum_congr rfl fun h _ => congrArg (hd (ix2 r h) * ·) (castD_apply wd d h)

/-- The stored payload at row r, column k · 1024 + d, over the expert's block as the body loads it (its gate half
    and its up half): the loaded accumulator plus the expert's masked contribution. -/
theorem pay3_apply (i : grid0.Coords) (x0 : Vec Ideal S512x1024 .bf16) (x1 : Vec Ideal S1x2x2048x1024 .bf16)
    (x2 : Vec Ideal S1x1024x2048 .bf16) (x3 : Vec Ideal S512x2 .i32) (v30 : Vec Ideal S512x2048 .f32)
    (r : Fin 512) (k : Fin 2) (d : Fin 1024) :
    k0_pay3 (F := Ideal) i x0
        (View.ld (Val := Elt Ideal) (e' := .bf16) x1 (Rect.unit (s := S1x2x2048x1024) ![0, 0, 0, 0] S1x1x2048x1024.size inb_S1x2x2048x1024_S1x1x2048x1024_0_0_0_0))
        (View.ld (Val := Elt Ideal) (e' := .bf16) x1 (Rect.unit (s := S1x2x2048x1024) ![0, 1, 0, 0] S1x1x2048x1024.size inb_S1x2x2048x1024_S1x1x2048x1024_0_1_0_0))
        x2 x3 v30 (ix2 r (col k d))
      = v30 (ix2 r (col k d)) + contribBlk x0 x1 x2 x3 (i 1).val r k d := by
  rw [pay3_eq]
  show v30 (ix2 r (col k d)) + slotSpread (F := Ideal) _ _ (ix2 r (col k d)) = _
  rw [slotSpread_apply, slotMask_apply, tileDown_apply]
  unfold contribBlk
  refine congrArg (v30 (ix2 r (col k d)) + maskOf (x3 (ix2 r k)) (i 1).val * ·) ?_
  refine Finset.sum_congr rfl fun h _ => ?_
  rw [tileHidden_apply]
  have sg : (∑ j : Fin 1024, x0 (ix2 r j) * (View.ld (Val := Elt Ideal) (e' := .bf16) x1 (Rect.unit (s := S1x2x2048x1024) ![0, 0, 0, 0] S1x1x2048x1024.size inb_S1x2x2048x1024_S1x1x2048x1024_0_0_0_0)) (ix4 (0 : Fin 1) (0 : Fin 1) h j))
      = ∑ j : Fin 1024, x0 (ix2 r j) * x1 (ix4 0 0 h j) :=
    Finset.sum_congr rfl fun j _ => congrArg (x0 (ix2 r j) * ·) (gate_ld x1 h j)
  have su : (∑ j : Fin 1024, x0 (ix2 r j) * (View.ld (Val := Elt Ideal) (e' := .bf16) x1 (Rect.unit (s := S1x2x2048x1024) ![0, 1, 0, 0] S1x1x2048x1024.size inb_S1x2x2048x1024_S1x1x2048x1024_0_1_0_0)) (ix4 (0 : Fin 1) (0 : Fin 1) h j))
      = ∑ j : Fin 1024, x0 (ix2 r j) * x1 (ix4 0 1 h j) :=
    Finset.sum_congr rfl fun j _ => congrArg (x0 (ix2 r j) * ·) (up_ld x1 h j)
  exact congrArg₂ (fun G U : EReal => ((G * Ideal.logistic G) * U) * x2 (ix3 0 d h)) sg su

/-- The zero block at an entry. -/
theorem zero_apply (y : S512x2048.Idx) : k0_pay2 (F := Ideal) y = 0 := by
  unfold k0_pay2
  rw [shapeCast_self]
  exact Ideal.ofBits_zero_f32

/-! ## The four pieces at an entry -/

/-- First expert of a tile: the accumulator after the body is 0 plus the expert's masked contribution. -/
theorem sout_A_apply (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec Ideal S512x1024 .bf16) (x1 : Vec Ideal S1x2x2048x1024 .bf16) (x2 : Vec Ideal S1x1024x2048 .bf16) (x3 : Vec Ideal S512x2 .i32) (r : Fin 512) (k : Fin 2) (d : Fin 1024) :
    sout0_A_0 (F := Ideal) c i arg2 harg2 arg3 harg3 arg4 harg4 arg5 harg5 arg6 harg6 arg7 harg7 hc0 hc1 x0 x1 x2 x3 (ix2 r (col k d))
      = 0 + contribBlk x0 x1 x2 x3 (i 1).val r k d := by
  refine (congrFun (sout_A_eq (F := Ideal) c i arg2 harg2 arg3 harg3 arg4 harg4 arg5 harg5 arg6 harg6 arg7 harg7 hc0 hc1 x0 x1 x2 x3) (ix2 r (col k d))).trans ?_
  refine (pay3_apply i x0 x1 x2 x3 (k0_pay2 (F := Ideal)) r k d).trans ?_
  exact congrArg (· + contribBlk x0 x1 x2 x3 (i 1).val r k d) (zero_apply _)

/-- A middle expert: what the point before left, plus the expert's masked contribution. -/
theorem sout_B_apply (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec Ideal S512x1024 .bf16) (x1 : Vec Ideal S1x2x2048x1024 .bf16) (x2 : Vec Ideal S1x1024x2048 .bf16) (x3 : Vec Ideal S512x2 .i32) (xs0 : Vec Ideal S512x2048 .f32) (r : Fin 512) (k : Fin 2) (d : Fin 1024) :
    sout0_B_0 (F := Ideal) c i arg2 harg2 arg3 harg3 arg4 harg4 arg5 harg5 arg6 harg6 arg7 harg7 hc0 hc1 x0 x1 x2 x3 xs0 (ix2 r (col k d))
      = xs0 (ix2 r (col k d)) + contribBlk x0 x1 x2 x3 (i 1).val r k d :=
  (congrFun (sout_B_eq (F := Ideal) c i arg2 harg2 arg3 harg3 arg4 harg4 arg5 harg5 arg6 harg6 arg7 harg7 hc0 hc1 x0 x1 x2 x3 xs0) (ix2 r (col k d))).trans
    (pay3_apply i x0 x1 x2 x3 xs0 r k d)

/-- The last expert, in the accumulator: the same step. -/
theorem sout_C_apply (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec Ideal S512x1024 .bf16) (x1 : Vec Ideal S1x2x2048x1024 .bf16) (x2 : Vec Ideal S1x1024x2048 .bf16) (x3 : Vec Ideal S512x2 .i32) (xs0 : Vec Ideal S512x2048 .f32) (r : Fin 512) (k : Fin 2) (d : Fin 1024) :
    sout0_C_0 (F := Ideal) c i arg2 harg2 arg3 harg3 arg4 harg4 arg5 harg5 arg6 harg6 arg7 harg7 hc0 hc1 x0 x1 x2 x3 xs0 (ix2 r (col k d))
      = xs0 (ix2 r (col k d)) + contribBlk x0 x1 x2 x3 (i 1).val r k d :=
  (congrFun (sout_C_eq (F := Ideal) c i arg2 harg2 arg3 harg3 arg4 harg4 arg5 harg5 arg6 harg6 arg7 harg7 hc0 hc1 x0 x1 x2 x3 xs0) (ix2 r (col k d))).trans
    (pay3_apply i x0 x1 x2 x3 xs0 r k d)

/-- The last expert, in the output block: the new accumulator, copied. -/
theorem out_C_apply (c : Dev nD) (i : grid0.Coords) (arg2 : Memref sig .tc .vmem S512x1024 .bf16) (harg2 : arg2.IsWhole) (arg3 : Memref sig .tc .vmem S1x2x2048x1024 .bf16) (harg3 : arg3.IsWhole) (arg4 : Memref sig .tc .vmem S1x1024x2048 .bf16) (harg4 : arg4.IsWhole) (arg5 : Memref sig .tc .vmem S512x2 .i32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec Ideal S512x1024 .bf16) (x1 : Vec Ideal S1x2x2048x1024 .bf16) (x2 : Vec Ideal S1x1024x2048 .bf16) (x3 : Vec Ideal S512x2 .i32) (xs0 : Vec Ideal S512x2048 .f32) (r : Fin 512) (k : Fin 2) (d : Fin 1024) :
    out0_C_4 (F := Ideal) c i arg2 harg2 arg3 harg3 arg4 harg4 arg5 harg5 arg6 harg6 arg7 harg7 hc0 hc1 x0 x1 x2 x3 xs0 (ix2 r (col k d))
      = xs0 (ix2 r (col k d)) + contribBlk x0 x1 x2 x3 (i 1).val r k d :=
  (congrFun (out_C_eq (F := Ideal) c i arg2 harg2 arg3 harg3 arg4 harg4 arg5 harg5 arg6 harg6 arg7 harg7 hc0 hc1 x0 x1 x2 x3 xs0) (ix2 r (col k d))).trans
    (pay3_apply i x0 x1 x2 x3 xs0 r k d)

end Cert.KernelIdeal.Pieces

end
-- ==== Proof.KBlocks.lean ====
/-
  The four input blocks of a grid point, read off the argument arrays at the ideal instance. The grid has 2 × 32
  points; point t belongs to token tile t / 32 and expert t % 32. The token rows' block is rows 512·tile .. 512·tile+511
  of x (the host's change of format before the call is the identity here), the slots' block the same rows of the index
  array, the two weight blocks expert t % 32's matrices.
-/
import proofs.«411968_j2018634629557_2_alg».proof.Proof.Gen.KernelIdeal.Frame
import proofs.«411968_j2018634629557_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.MoeSpec Idealize.ShloMosaic Idealize.ShloMosaic.TcCoe Idealize.ShloMosaic.ValueIdx Idealize.SL.Sem

variable (m : (ℓ : Loc nD τ sig) → Buf (Elt Ideal) ℓ)

/-- The token tile of grid point t. -/
def tileOf (t : Fin cfg0.N) : Fin 2 := ⟨t.val / 32, by have h : cfg0.N = 64 := N_0; have := t.isLt; omega⟩
/-- The expert of grid point t. -/
def expOf (t : Fin cfg0.N) : Fin 32 := ⟨t.val % 32, Nat.mod_lt _ (by decide)⟩

/-- The point's blocks, at their literal types. -/
abbrev xblk (c : Dev nD) (t : Fin cfg0.N) : Vec Ideal S512x1024 .bf16 := iblk m c 0 t
abbrev wblk (c : Dev nD) (t : Fin cfg0.N) : Vec Ideal S1x2x2048x1024 .bf16 := iblk m c 1 t
abbrev dblk (c : Dev nD) (t : Fin cfg0.N) : Vec Ideal S1x1024x2048 .bf16 := iblk m c 2 t
abbrev sblk (c : Dev nD) (t : Fin cfg0.N) : Vec Ideal S512x2 .i32 := iblk m c 3 t

/-- The token rows' window sits at block (t / 32, 0): decided over the 64 grid points. -/
theorem idx0 : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)

/-- The gate and up matrices' window sits at block (t % 32, 0, 0, 0): decided over the 64 grid points. -/
theorem idx1 : ∀ t : Fin cfg0.N, win0_1.index t (0 : Fin 4) = t.val % 32 ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val % 32 ∧ win0_1.index t (1 : Fin 4) = 0
    ∧ win0_1.index t (2 : Fin 4) = 0 ∧ win0_1.index t (3 : Fin 4) = 0)

/-- The down matrix's window sits at block (t % 32, 0, 0): decided over the 64 grid points. -/
theorem idx2 : ∀ t : Fin cfg0.N, win0_2.index t (0 : Fin 3) = t.val % 32 ∧ win0_2.index t (1 : Fin 3) = 0
    ∧ win0_2.index t (2 : Fin 3) = 0 :=
  (by decide +kernel : ∀ t : Fin grid0.N, win0_2.index t (0 : Fin 3) = t.val % 32 ∧ win0_2.index t (1 : Fin 3) = 0
    ∧ win0_2.index t (2 : Fin 3) = 0)

/-- The slots' window sits at block (t / 32, 0): decided over the 64 grid points. -/
theorem idx3 : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- The token rows' array as the call finds it is the host's change of format of x: the identity on extended reals. -/
theorem V_main_v0_apply (c : Dev nD) (i : S1024x1024.Idx) :
    V m c main_v0 i = m ((c.tc : Thread nD τ).loc main_arg0) i := by
  have e : V m c main_v0 = (truncf .bf16 (m ((c.tc : Thread nD τ).loc main_arg0) : FVec Ideal S1024x1024 .f32) bitsLt_bf16_f32 : FVec Ideal S1024x1024 .bf16) := by
    show StableHlo.after hostOps0 (fun b => m (c, b)) (Proc.devRef .tc main_v0) = _
    after_results
  rw [e]; rfl

/-- The gate and up matrices' array as the call finds it is the host's change of format of them: the identity. -/
theorem V_main_v1_apply (c : Dev nD) (i : S32x2x2048x1024.Idx) :
    V m c main_v1 i = m ((c.tc : Thread nD τ).loc main_arg2) i := by
  have e : V m c main_v1 = (truncf .bf16 (m ((c.tc : Thread nD τ).loc main_arg2) : FVec Ideal S32x2x2048x1024 .f32) bitsLt_bf16_f32 : FVec Ideal S32x2x2048x1024 .bf16) := by
    show StableHlo.after hostOps0 (fun b => m (c, b)) (Proc.devRef .tc main_v1) = _
    after_results
  rw [e]; rfl

/-- The down matrices' array as the call finds it is the host's change of format of them: the identity. -/
theorem V_main_v2_apply (c : Dev nD) (i : S32x1024x2048.Idx) :
    V m c main_v2 i = m ((c.tc : Thread nD τ).loc main_arg3) i := by
  have e : V m c main_v2 = (truncf .bf16 (m ((c.tc : Thread nD τ).loc main_arg3) : FVec Ideal S32x1024x2048 .f32) bitsLt_bf16_f32 : FVec Ideal S32x1024x2048 .bf16) := by
    show StableHlo.after hostOps0 (fun b => m (c, b)) (Proc.devRef .tc main_v2) = _
    after_results
  rw [e]; rfl

/-- The body's second grid coordinate at point t is the expert t % 32. -/
theorem coord1 (t : Fin cfg0.N) : ((grid0.coords t) 1).val = t.val % 32 := by
  exact (by decide +kernel : ∀ t : Fin grid0.N, ((grid0.coords t) 1).val = t.val % 32) t

/-- The token rows' block: row r is token 512·tile + r of x. -/
theorem xblk_apply (c : Dev nD) (t : Fin cfg0.N) (r : Fin 512) (j : Fin 1024) :
    xblk m c t (ix2 r j) = m ((c.tc : Thread nD τ).loc main_arg0) (ix2 (tokRow (tileOf t) r) j) := by
  show iblk m c 0 t (ix2 r j) = _
  unfold iblk
  rw [View.read_apply]
  show V m c main_v0 _ = _
  rw [V_main_v0_apply]
  congr 1
  funext a
  apply Fin.ext
  -- per axis: the array coordinate is the block's index times the block's extent plus the coordinate inside the block
  match a with
  | ⟨0, _⟩ => show win0_0.index t 0 * 512 + 1 * r.val = 512 * (t.val / 32) + r.val; rw [(idx0 t).1]; omega
  | ⟨1, _⟩ => show win0_0.index t 1 * 1024 + 1 * j.val = j.val; rw [(idx0 t).2]; omega

/-- The gate and up matrices' block: expert t % 32's. -/
theorem wblk_apply (c : Dev nD) (t : Fin cfg0.N) (s : Fin 2) (h : Fin 2048) (j : Fin 1024) :
    wblk m c t (ix4 0 s h j) = m ((c.tc : Thread nD τ).loc main_arg2) (ix4 (expOf t) s h j) := by
  show iblk m c 1 t (ix4 0 s h j) = _
  unfold iblk
  rw [View.read_apply]
  show V m c main_v1 _ = _
  rw [V_main_v1_apply]
  congr 1
  funext a
  apply Fin.ext
  match a with
  | ⟨0, _⟩ => show win0_1.index t 0 * 1 + 1 * 0 = t.val % 32; rw [(idx1 t).1]; omega
  | ⟨1, _⟩ => show win0_1.index t 1 * 2 + 1 * s.val = s.val; rw [(idx1 t).2.1]; omega
  | ⟨2, _⟩ => show win0_1.index t 2 * 2048 + 1 * h.val = h.val; rw [(idx1 t).2.2.1]; omega
  | ⟨3, _⟩ => show win0_1.index t 3 * 1024 + 1 * j.val = j.val; rw [(idx1 t).2.2.2]; omega

/-- The down matrix's block: expert t % 32's. -/
theorem dblk_apply (c : Dev nD) (t : Fin cfg0.N) (d : Fin 1024) (h : Fin 2048) :
    dblk m c t (ix3 0 d h) = m ((c.tc : Thread nD τ).loc main_arg3) (ix3 (expOf t) d h) := by
  show iblk m c 2 t (ix3 0 d h) = _
  unfold iblk
  rw [View.read_apply]
  show V m c main_v2 _ = _
  rw [V_main_v2_apply]
  congr 1
  funext a
  apply Fin.ext
  match a with
  | ⟨0, _⟩ => show win0_2.index t 0 * 1 + 1 * 0 = t.val % 32; rw [(idx2 t).1]; omega
  | ⟨1, _⟩ => show win0_2.index t 1 * 1024 + 1 * d.val = d.val; rw [(idx2 t).2.1]; omega
  | ⟨2, _⟩ => show win0_2.index t 2 * 2048 + 1 * h.val = h.val; rw [(idx2 t).2.2]; omega

/-- The slots' block: row r is token 512·tile + r of the index array. -/
theorem sblk_apply (c : Dev nD) (t : Fin cfg0.N) (r : Fin 512) (k : Fin 2) :
    sblk m c t (ix2 r k) = m ((c.tc : Thread nD τ).loc main_arg1) (ix2 (tokRow (tileOf t) r) k) := by
  show iblk m c 3 t (ix2 r k) = _
  unfold iblk
  rw [View.read_apply]
  show V m c main_arg1 _ = _
  rw [V_main_arg1]
  congr 1
  funext a
  apply Fin.ext
  match a with
  | ⟨0, _⟩ => show win0_3.index t 0 * 512 + 1 * r.val = 512 * (t.val / 32) + r.val; rw [(idx3 t).1]; omega
  | ⟨1, _⟩ => show win0_3.index t 1 * 2 + 1 * k.val = k.val; rw [(idx3 t).2]; omega

end Cert.KernelIdeal.Blocks

end
-- ==== Proof.KRun.lean ====
/-
  From the output block's contents at the two write-back points to the program's run. The output window's block for
  tile `tile` is rows 512·tile .. 512·tile+511 of a 1024 × 2048 array, written back only after expert 31; the two
  blocks cover the array; the host then reshapes row t's 2048 columns into 2 slots of 1024. So if at every write-back
  point the block holds, at row r and column k·1024 + d, the value OUT (512·tile + r, k, d), the program's result is OUT.
-/
import proofs.«411968_j2018634629557_2_alg».proof.Proof.Gen.KernelIdeal.Frame
import proofs.«411968_j2018634629557_2_alg».proof.Proof.Spec
import proofs.«411968_j2018634629557_2_alg».proof.Proof.KBlocks
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KRun

open Cert.KernelIdeal Cert.KernelIdeal.Gen Cert.KernelIdeal.Blocks Cert.MoeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The array of 1024 × 2048 whose row t, column k·1024 + d is OUT (t, k, d). -/
def wideOut (OUT : Dev nD → SO.Idx → EReal) (c : Dev nD) : S1024x2048.Idx → EReal :=
  fun y => OUT c (ix3 (y 0) ⟨(y 1).val / 1024, by have h : (y 1).val < 2048 := (y 1).isLt; omega⟩
    ⟨(y 1).val % 1024, Nat.mod_lt _ (by decide)⟩)

/-- The output window's index map, decided over the grid: the block of point t is row block t / 32, column block 0. -/
theorem idx_out : ∀ t : Fin cfg0.N, win0_4.index t (0 : Fin 2) = t.val / 32 ∧ win0_4.index t (1 : Fin 2) = 0 :=
  (by decide +kernel : ∀ t : Fin grid0.N, _)

/-- What a write-back point writes is its block of the wide array: at row r and column j = k·1024 + d of the block of
    tile t / 32 the block holds OUT (512·(t / 32) + r, k, d), which is the wide array at (512·(t / 32) + r, j). -/
theorem flushed_out (OUT : Dev nD → SO.Idx → EReal)
    (hacc : ∀ (c : Dev nD) (t : Fin cfg0.N), t.val % 32 = 31 → ∀ (r : Fin 512) (k : Fin 2) (d : Fin 1024),
      (outsAt0 (F := Ideal) m c t.val t.isLt).1 (ix2 r (col k d)) = OUT c (ix3 (tokRow (tileOf t) r) k d))
    (c : Dev nD) (t : Fin cfg0.N) (hf : (cfg0.win 4).flush t = true) :
    (dats m 0 c).flushed 4 t = ((cfg0.win 4).blk t).view.read (Elt Ideal) (wideOut OUT c) := by
  have h31 : t.val % 32 = 31 := (flush0_4 t).mp hf
  obtain ⟨e0, e1⟩ := idx_out t
  show (cfg0.win 4).cut (grid0.coords t) ((dats m 0 c).after 4 t) = _
  rw [after0_4]
  funext y
  obtain ⟨r, j, rfl⟩ : ∃ (r : Fin 512) (j : Fin 2048), y = ix2 r j := ⟨y 0, y 1, eq_ix2 y⟩
  show (outsAt0 (F := Ideal) m c t.val t.isLt).1 (ix2 r j) = wideOut OUT c (((cfg0.win 4).blk t).view.emb (ix2 r j))
  refine ((congrArg (fun j' => (outsAt0 (F := Ideal) m c t.val t.isLt).1 (ix2 r j')) (eq_col j)).trans
    (hacc c t h31 r _ _)).trans ?_
  unfold wideOut
  refine congrArg (OUT c) ?_
  have h0 : (((cfg0.win 4).blk t).view.emb (ix2 r j) 0).val = 512 * (t.val / 32) + r.val := by
    show win0_4.index t (0 : Fin 2) * 512 + 1 * r.val = _
    rw [e0]; omega
  have h1 : (((cfg0.win 4).blk t).view.emb (ix2 r j) 1).val = j.val := by
    show win0_4.index t (1 : Fin 2) * 2048 + 1 * j.val = _
    rw [e1]; omega
  funext a
  match a with
  | ⟨0, _⟩ => exact Fin.ext h0.symm
  | ⟨1, _⟩ => exact Fin.ext (show j.val / 1024 = _ / 1024 from by rw [h1])
  | ⟨2, _⟩ => exact Fin.ext (show j.val % 1024 = _ % 1024 from by rw [h1])

/-- An index of the array is in point t's block iff each coordinate is in the block's range on its axis. -/
theorem mem_blk_out (t : Fin cfg0.N) (i : S1024x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v3).slice (win0_4.rect t)).set ↔ _
  rw [View.set_slice_whole, Rect.mem_set_unit]
  exact Iff.rfl

/-- The two write-back blocks cover the array (row i is in the block written back after expert 31 of tile i / 512), so
    the array ends as the wide array. -/
theorem final_out (OUT : Dev nD → SO.Idx → EReal)
    (hacc : ∀ (c : Dev nD) (t : Fin cfg0.N), t.val % 32 = 31 → ∀ (r : Fin 512) (k : Fin 2) (d : Fin 1024),
      (outsAt0 (F := Ideal) m c t.val t.isLt).1 (ix2 r (col k d)) = OUT c (ix3 (tokRow (tileOf t) r) k d))
    (c : Dev nD) : (dats m 0 c).arrAt 4 cfg0.N = wideOut OUT c :=
  (dats m 0 c).arrAt_eq_of_cover 4 (wideOut OUT c) (fun t hf => flushed_out m OUT hacc c t hf) fun i => by
    have hi0 : (i 0).val < 1024 := (i 0).isLt
    have hi1 : (i 1).val < 2048 := (i 1).isLt
    have hN : cfg0.N = 64 := N_0
    have hlt : 32 * ((i 0).val / 512) + 31 < cfg0.N := by omega
    obtain ⟨e0, e1⟩ := idx_out ⟨32 * ((i 0).val / 512) + 31, hlt⟩
    refine ⟨⟨32 * ((i 0).val / 512) + 31, hlt⟩, (flush0_4 _).mpr (by show (32 * ((i 0).val / 512) + 31) % 32 = 31; omega), ?_⟩
    rw [mem_blk_out]
    intro a
    match a with
    | ⟨0, _⟩ =>
      show win0_4.index ⟨32 * ((i 0).val / 512) + 31, hlt⟩ (0 : Fin 2) * 512 ≤ (i 0).val
        ∧ (i 0).val < win0_4.index ⟨32 * ((i 0).val / 512) + 31, hlt⟩ (0 : Fin 2) * 512 + 512
      rw [e0]; dsimp only; omega
    | ⟨1, _⟩ =>
      show win0_4.index ⟨32 * ((i 0).val / 512) + 31, hlt⟩ (1 : Fin 2) * 2048 ≤ (i 1).val
        ∧ (i 1).val < win0_4.index ⟨32 * ((i 0).val / 512) + 31, hlt⟩ (1 : Fin 2) * 2048 + 2048
      rw [e1]; omega

/-- After the region the host reshapes the array of 1024 × 2048 into 1024 × 2 × 1024: entry (t, k, d) of the result is
    the entry of the wide array with the same row-major position, row t and column k·1024 + d, which is OUT (t, k, d). -/
theorem tail_out (OUT : Dev nD → SO.Idx → EReal)
    (hacc : ∀ (c : Dev nD) (t : Fin cfg0.N), t.val % 32 = 31 → ∀ (r : Fin 512) (k : Fin 2) (d : Fin 1024),
      (outsAt0 (F := Ideal) m c t.val t.isLt).1 (ix2 r (col k d)) = OUT c (ix3 (tokRow (tileOf t) r) k d))
    (c : Dev nD) : Pipeline.afterTail₀ cfgs (dats m) 0 (V0 m) [hostOps1] c main_v4 = OUT c := by
  have hw : Pipeline.withArrays (cfgs 0).spec c (V0 m c) (fun w => (dats m 0 c).arrAt w (cfgs 0).N)
      (Proc.devRef .tc main_v3) = wideOut OUT c :=
    (Pipeline.withArrays_arr spec0 launch0.win.arr_inj c _ _ 4).trans (final_out m OUT hacc c)
  unfold Pipeline.afterTail₀
  show StableHlo.after hostOps1 _ (Proc.devRef .tc main_v4) = _
  after_results
  funext i
  obtain ⟨t, k, d, rfl⟩ : ∃ (t : Fin 1024) (k : Fin 2) (d : Fin 1024), i = ix3 t k d := ⟨i 0, i 1, i 2, eq_ix3 i⟩
  show shapeCast S1024x2x1024 (Pipeline.withArrays (cfgs 0).spec c (V0 m c) (fun w => (dats m 0 c).arrAt w (cfgs 0).N)
      (Proc.devRef .tc main_v3)) shapeCasts_S1024x2048_S1024x2x1024 (ix3 t k d) = OUT c (ix3 t k d)
  rw [hw]
  refine (shapeCast_apply (wideOut OUT c) shapeCasts_S1024x2048_S1024x2x1024 (ix3 t k d) (ix2 t (col k d)) ?_).trans ?_
  · rw [Shape.rowMajor_val_two, Shape.rowMajor_val_three]
    show t.val * 2048 + (k.val * 1024 + d.val) = (t.val * 2 + k.val) * 1024 + d.val
    omega
  · unfold wideOut
    refine congrArg (OUT c) ?_
    have hd : d.val < 1024 := d.isLt
    funext a
    match a with
    | ⟨0, _⟩ => rfl
    | ⟨1, _⟩ => exact Fin.ext (show (k.val * 1024 + d.val) / 1024 = k.val from by omega)
    | ⟨2, _⟩ => exact Fin.ext (show (k.val * 1024 + d.val) % 1024 = d.val from by omega)

/-- The run, read: the result at OUT, the arguments unchanged. -/
theorem run_of_acc (OUT : Dev nD → SO.Idx → EReal)
    (hacc : ∀ (c : Dev nD) (t : Fin cfg0.N), t.val % 32 = 31 → ∀ (r : Fin 512) (k : Fin 2) (d : Fin 1024),
      (outsAt0 (F := Ideal) m c t.val t.isLt).1 (ix2 r (col k d)) = OUT c (ix3 (tokRow (tileOf t) r) k d)) :
    θ_run (defs (F := Ideal)) (onTc (τ := τ) (main (F := Ideal))) ⟨m, fun _ => 0, ρ⟩ (fun r => ∀ c : Dev nD,
      r.2.mem ((c.tc : Thread nD τ).loc main_v4) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_out m OUT hacc c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.KInv.lean ====
/-
  The accumulator, point by point. After the grid point of tile `tile` and expert e the scratch accumulator holds, at
  row r and column k·1024 + d, the layer's partial result `partialOut` after experts 0..e for token 512·tile + r, slot k
  and model coordinate d: by induction on the point, each step one of the three laws of the specification. After expert 31
  the output block holds the same, and that is the program's result.
-/
import proofs.«411968_j2018634629557_2_alg».proof.Proof.Gen.KernelIdeal.Frame
import proofs.«411968_j2018634629557_2_alg».proof.Proof.Spec
import proofs.«411968_j2018634629557_2_alg».proof.Proof.KPieces
import proofs.«411968_j2018634629557_2_alg».proof.Proof.KBlocks
import proofs.«411968_j2018634629557_2_alg».proof.Proof.KRun

noncomputable section

namespace Cert.KernelIdeal.Inv

open Cert.KernelIdeal Cert.KernelIdeal.Gen Cert.KernelIdeal.Blocks Cert.KernelIdeal.Pieces Cert.MoeSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The four argument arrays on core c. -/
abbrev X (c : Dev nD) : SX.Idx → EReal := m ((c.tc : Thread nD τ).loc main_arg0)
abbrev I (c : Dev nD) : SI.Idx → BitVec 32 := m ((c.tc : Thread nD τ).loc main_arg1)
abbrev W (c : Dev nD) : SGU.Idx → EReal := m ((c.tc : Thread nD τ).loc main_arg2)
abbrev D (c : Dev nD) : SD.Idx → EReal := m ((c.tc : Thread nD τ).loc main_arg3)

/-- The point's masked contribution, in terms of the whole arrays: the indicator "slot k of token 512·tile + r names
    expert t % 32" times that expert's down projection of the token. -/
theorem contrib_eq (c : Dev nD) (t : Fin cfg0.N) (r : Fin 512) (k : Fin 2) (d : Fin 1024) :
    contribBlk (xblk m c t) (wblk m c t) (dblk m c t) (sblk m c t) ((grid0.coords t) 1).val r k d
      = maskOf (I m c (ix2 (tokRow (tileOf t) r) k)) (t.val % 32)
        * down (X m c) (W m c) (D m c) (tokRow (tileOf t) r) (expOf t) d := by
  rw [coord1]
  unfold contribBlk down Cert.MoeSpec.hidden proj
  simp only [xblk_apply, wblk_apply, dblk_apply, sblk_apply]

/-- The accumulator's first step, with its bookkeeping as hypotheses: the expert is number 0. -/
theorem partialOut_start (x : SX.Idx → EReal) (idx : SI.Idx → BitVec 32) (wgu : SGU.Idx → EReal) (wd : SD.Idx → EReal)
    (e' : Nat) (he : e' = 0) (ex : Fin 32) (hex : ex.val = e') (t : Fin 1024) (k : Fin 2) (d : Fin 1024) :
    0 + maskOf (idx (ix2 t k)) e' * down x wgu wd t ex d = partialOut x idx wgu wd e' t k d := by
  subst he
  have hx : ex = ⟨0, by decide⟩ := Fin.ext hex
  subst hx
  exact partialOut_zero x idx wgu wd t k d

/-- The accumulator's later steps, with their bookkeeping as hypotheses: the same token, the next expert. -/
theorem partialOut_step (x : SX.Idx → EReal) (idx : SI.Idx → BitVec 32) (wgu : SGU.Idx → EReal) (wd : SD.Idx → EReal)
    (e e' : Nat) (he : e' = e + 1) (he32 : e' < 32) (ex : Fin 32) (hex : ex.val = e') (t t' : Fin 1024) (ht : t' = t)
    (k : Fin 2) (d : Fin 1024) :
    partialOut x idx wgu wd e t' k d + maskOf (idx (ix2 t k)) e' * down x wgu wd t ex d
      = partialOut x idx wgu wd e' t k d := by
  subst ht
  subst he
  have hx : ex = ⟨e + 1, he32⟩ := Fin.ext hex
  subst hx
  exact partialOut_succ x idx wgu wd e he32 t' k d

/-- At a tile's first expert the accumulator is reset and receives that expert's contribution. -/
theorem acc_first (c : Dev nD) (t : Fin cfg0.N) (h0 : t.val % 32 = 0) (h1 : ¬t.val % 32 = 31)
    (r : Fin 512) (k : Fin 2) (d : Fin 1024) :
    (outsAt0 m c t.val t.isLt).2 (ix2 r (col k d))
      = partialOut (X m c) (I m c) (W m c) (D m c) (t.val % 32) (tokRow (tileOf t) r) k d := by
  rw [outsAt0_A m c t h0 h1]
  dsimp only
  refine (sout_A_apply c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (xblk m c t) (wblk m c t) (dblk m c t) (sblk m c t) r k d).trans ?_
  rw [contrib_eq m c t r k d]
  exact partialOut_start (X m c) (I m c) (W m c) (D m c) (t.val % 32) h0 (expOf t) rfl (tokRow (tileOf t) r) k d

/-- The accumulator after point t is the partial result after experts 0 .. t % 32 of tile t / 32: by induction on the
    point; a tile's later points add to what the point before left, which belongs to the same tile. -/
theorem acc_at (c : Dev nD) : ∀ (n : ℕ) (t : Fin cfg0.N), t.val = n → ∀ (r : Fin 512) (k : Fin 2) (d : Fin 1024),
    (outsAt0 m c t.val t.isLt).2 (ix2 r (col k d))
      = partialOut (X m c) (I m c) (W m c) (D m c) (t.val % 32) (tokRow (tileOf t) r) k d := by
  intro n
  induction n with
  | zero =>
    intro t ht r k d
    exact acc_first m c t (by omega) (by omega) r k d
  | succ n ih =>
    intro t ht r k d
    have hN : cfg0.N = 64 := N_0
    have htl := t.isLt
    by_cases h0 : t.val % 32 = 0
    · exact acc_first m c t h0 (by omega) r k d
    · have hlt : t.val - 1 < cfg0.N := by omega
      have hprev := ih ⟨t.val - 1, hlt⟩ (by show t.val - 1 = n; omega) r k d
      have htile : tokRow (tileOf ⟨t.val - 1, hlt⟩) r = tokRow (tileOf t) r := by
        apply Fin.ext
        show 512 * ((t.val - 1) / 32) + r.val = 512 * (t.val / 32) + r.val
        have : (t.val - 1) / 32 = t.val / 32 := by omega
        rw [this]
      have hmod : t.val % 32 = (t.val - 1) % 32 + 1 := by omega
      have h32 : t.val % 32 < 32 := Nat.mod_lt _ (by decide)
      by_cases h1 : t.val % 32 = 31
      · rw [outsAt0_C m c t h0 h1]
        dsimp only
        refine (sout_C_apply c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (xblk m c t) (wblk m c t) (dblk m c t) (sblk m c t)
          (outsAt0 m c (t.val - 1) (Nat.lt_of_le_of_lt (Nat.sub_le _ _) t.isLt)).2 r k d).trans ?_
        rw [contrib_eq m c t r k d]
        refine (congrArg (fun z => z + maskOf (I m c (ix2 (tokRow (tileOf t) r) k)) (t.val % 32)
          * down (X m c) (W m c) (D m c) (tokRow (tileOf t) r) (expOf t) d) hprev).trans ?_
        exact partialOut_step (X m c) (I m c) (W m c) (D m c) ((t.val - 1) % 32) (t.val % 32) hmod h32 (expOf t) rfl
          (tokRow (tileOf t) r) _ htile k d
      · rw [outsAt0_B m c t h0 h1]
        dsimp only
        refine (sout_B_apply c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (xblk m c t) (wblk m c t) (dblk m c t) (sblk m c t)
          (outsAt0 m c (t.val - 1) (Nat.lt_of_le_of_lt (Nat.sub_le _ _) t.isLt)).2 r k d).trans ?_
        rw [contrib_eq m c t r k d]
        refine (congrArg (fun z => z + maskOf (I m c (ix2 (tokRow (tileOf t) r) k)) (t.val % 32)
          * down (X m c) (W m c) (D m c) (tokRow (tileOf t) r) (expOf t) d) hprev).trans ?_
        exact partialOut_step (X m c) (I m c) (W m c) (D m c) ((t.val - 1) % 32) (t.val % 32) hmod h32 (expOf t) rfl
          (tokRow (tileOf t) r) _ htile k d

/-- At a write-back point the output block holds the partial result after all 32 experts: the last expert's step,
    copied from the accumulator. -/
theorem out_eq (c : Dev nD) (t : Fin cfg0.N) (h31 : t.val % 32 = 31) (r : Fin 512) (k : Fin 2) (d : Fin 1024) :
    (outsAt0 m c t.val t.isLt).1 (ix2 r (col k d))
      = partialOut (X m c) (I m c) (W m c) (D m c) 31 (tokRow (tileOf t) r) k d := by
  have hN : cfg0.N = 64 := N_0
  have htl := t.isLt
  have h0 : ¬t.val % 32 = 0 := by omega
  have hlt : t.val - 1 < cfg0.N := by omega
  have hprev := acc_at m c (t.val - 1) ⟨t.val - 1, hlt⟩ rfl r k d
  have htile : tokRow (tileOf ⟨t.val - 1, hlt⟩) r = tokRow (tileOf t) r := by
    apply Fin.ext
    show 512 * ((t.val - 1) / 32) + r.val = 512 * (t.val / 32) + r.val
    have : (t.val - 1) / 32 = t.val / 32 := by omega
    rw [this]
  have hmod : t.val % 32 = (t.val - 1) % 32 + 1 := by omega
  have h32 : t.val % 32 < 32 := Nat.mod_lt _ (by decide)
  rw [outsAt0_C m c t h0 h31]
  dsimp only
  refine (out_C_apply c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (xblk m c t) (wblk m c t) (dblk m c t) (sblk m c t)
    (outsAt0 m c (t.val - 1) (Nat.lt_of_le_of_lt (Nat.sub_le _ _) t.isLt)).2 r k d).trans ?_
  rw [contrib_eq m c t r k d]
  refine (congrArg (fun z => z + maskOf (I m c (ix2 (tokRow (tileOf t) r) k)) (t.val % 32)
    * down (X m c) (W m c) (D m c) (tokRow (tileOf t) r) (expOf t) d) hprev).trans ?_
  refine (partialOut_step (X m c) (I m c) (W m c) (D m c) ((t.val - 1) % 32) (t.val % 32) hmod h32 (expOf t) rfl
    (tokRow (tileOf t) r) _ htile k d).trans ?_
  rw [h31]

/-- The program's result: the partial result after all 32 experts, at every (t, k, d). -/
def result (c : Dev nD) : SO.Idx → EReal :=
  fun i => partialOut (X m c) (I m c) (W m c) (D m c) 31 (i 0) (i 1) (i 2)

/-- The idealized kernel's run ends with the result array at `result` and the arguments unchanged. -/
theorem run : θ_run (defs (F := Ideal)) (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.KernelIdeal.KRun.run_of_acc m ρ (result m) (fun c t h31 r k d => out_eq m c t h31 r k d)

/-- Where every expert index is below 32 the result is the layer. -/
theorem result_eq (c : Dev nD) (hr : ∀ i : SI.Idx, (I m c i).toNat < 32) :
    result m c = moe (X m c) (I m c) (W m c) (D m c) := by
  funext i
  obtain ⟨t, k, d, rfl⟩ : ∃ (t : Fin 1024) (k : Fin 2) (d : Fin 1024), i = ix3 t k d := ⟨i 0, i 1, i 2, eq_ix3 i⟩
  exact partialOut_last (X m c) (I m c) (W m c) (D m c) t k d (hr (ix2 t k))

end Cert.KernelIdeal.Inv

end
-- ==== Proof.lean ====
/-
  A routed feed-forward layer: 1024 tokens, 32 experts, 2 slots per token. For slot k of token t, naming expert e, the
  result row is  down_e( silu(gate_e x_t) · up_e x_t ),  silu(g) = g / (1 + e^{-g}).

  The reference computes the gate and up projections for all experts, gathers the named expert's, applies silu and the
  product, computes the down projection for all experts and gathers the named one. The kernel visits the experts one grid
  point at a time per tile of 512 tokens and adds expert e's down projection, times the indicator "slot k names e", into an
  accumulator that it resets at e = 0 and copies out after e = 31.

  Over the extended reals the two agree where every expert index lies in 0..31: the indicator is 1 for exactly one e and
  0 for the others, 0 · y = 0 and 0 + y = y for every extended real y, so the accumulator ends at the named expert's down
  projection (Proof/Spec.lean, Proof/KInv.lean), which is what the reference's two gathers select (Proof/RefValue.lean).
  Outside 0..31 they differ (the reference wraps a negative index and fills not-a-number past the range; the kernel's
  indicator is 0 for every e), so the precondition carries the range, and Proof/PreIdx.lean reads it back.
  Changes of float format are the identity at this instance; the finiteness of the float inputs is not used.
-/
import proofs.«411968_j2018634629557_2_alg».proof.Defs
import proofs.«411968_j2018634629557_2_alg».proof.Proof.Gen.Kernel
import proofs.«411968_j2018634629557_2_alg».proof.Proof.Gen.Kernel.Frame
import proofs.«411968_j2018634629557_2_alg».proof.Proof.Gen.KernelIdeal
import proofs.«411968_j2018634629557_2_alg».proof.Proof.Gen.KernelIdeal.Frame
import proofs.«411968_j2018634629557_2_alg».proof.Proof.Gen.ReferenceIdeal
import proofs.«411968_j2018634629557_2_alg».proof.Proof.Gen.ReferenceIdeal.Run
import proofs.«411968_j2018634629557_2_alg».proof.Proof.Gen.ReferenceIdeal.Read
import proofs.«411968_j2018634629557_2_alg».proof.Proof.Gen.Pre_finite_inputs
import proofs.«411968_j2018634629557_2_alg».proof.Proof.Spec
import proofs.«411968_j2018634629557_2_alg».proof.Proof.PreIdx
import proofs.«411968_j2018634629557_2_alg».proof.Proof.RefValue
import proofs.«411968_j2018634629557_2_alg».proof.Proof.KInv
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer's result: the kernel's accumulator after all 32 experts, the reference's two
    gathers, of arguments that agree and whose expert indices the precondition keeps in 0..31. -/
theorem algebraic : Cert.algebraic_KernelIdeal_ReferenceIdeal := by
  intro m ρ m' ρ' hpre hagree
  refine ⟨fun c => Cert.KernelIdeal.Inv.result m c, Cert.KernelIdeal.Inv.run m ρ, ?_⟩
  refine (θ_run Cert.ReferenceIdeal.defs _ _).mono (fun _ h c => ⟨(h c).1.trans ?_, (h c).2⟩)
    (Cert.ReferenceIdeal.Value.run (F := Ideal) m' ρ')
  have hr := Cert.Pre_finite_inputs.Decode.idx_lt_of_pre _ _ _ _ (hpre c)
  rw [Cert.ReferenceIdeal.Read.val_main_v12_eq, (hagree c).1, (hagree c).2.1, (hagree c).2.2.1, (hagree c).2.2.2,
    Cert.ReferenceIdeal.RefValue.ref_eq _ _ _ _ hr]
  exact (Cert.KernelIdeal.Inv.result_eq m c hr).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
